-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x768 : Shape := ⟨3, ![64, 256, 768]⟩
abbrev S513x768 : Shape := ⟨2, ![513, 768]⟩
abbrev S201x768 : Shape := ⟨2, ![201, 768]⟩
abbrev S200x2304 : Shape := ⟨2, ![200, 2304]⟩
abbrev S200 : Shape := ⟨1, ![200]⟩
abbrev S64x256 : Shape := ⟨2, ![64, 256]⟩
abbrev S64 : Shape := ⟨1, ![64]⟩
abbrev S_ : Shape := ⟨0, ![]⟩

class Facts : Prop where
  bcast_S_S64x256x768 : S_.BroadcastsInDim S64x256x768 (![] : Fin 0 → Fin S64x256x768.rank)
  reducesTo_S64x256x768_S_d0_1_2 : S64x256x768.ReducesTo [0, 1, 2] S_
  h_S_ : 0 < S_.numel
  bcast_S_S513x768 : S_.BroadcastsInDim S513x768 (![] : Fin 0 → Fin S513x768.rank)
  reducesTo_S513x768_S_d0_1 : S513x768.ReducesTo [0, 1] S_
  bcast_S_S201x768 : S_.BroadcastsInDim S201x768 (![] : Fin 0 → Fin S201x768.rank)
  reducesTo_S201x768_S_d0_1 : S201x768.ReducesTo [0, 1] S_
  bcast_S_S200x2304 : S_.BroadcastsInDim S200x2304 (![] : Fin 0 → Fin S200x2304.rank)
  reducesTo_S200x2304_S_d0_1 : S200x2304.ReducesTo [0, 1] S_
  bcast_S_S200 : S_.BroadcastsInDim S200 (![] : Fin 0 → Fin S200.rank)
  reducesTo_S200_S_d0 : S200.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg6 : IVec S64 32) (main_arg7 : IVec S64 32) (main_v30 : IVec S_ 1) (main_v32 : IVec S64 1) (main_c_12 : IVec S_ 32) : IVec S_ 1 :=
  let main_v33 : IVec S64 32 := broadcastInDim S64 ![] bcast_S_S64 main_c_12
  let main_v34 : IVec S64 1 := cmpi .slt main_arg6 main_v33
  let main_v35 : IVec S64 1 := andi main_v32 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v30 main_v36
  let main_c_14 : IVec S_ 32 := constantI S_ 32 0#32
  let main_v38 : IVec S64 32 := broadcastInDim S64 ![] bcast_S_S64 main_c_14
  let main_v39 : IVec S64 1 := cmpi .sge main_arg7 main_v38
  let main_c_15 : IVec S_ 32 := constantI S_ 32 256#32
  let main_v40 : IVec S64 32 := broadcastInDim S64 ![] bcast_S_S64 main_c_15
  let main_v41 : IVec S64 1 := cmpi .slt main_arg7 main_v40
  let main_v42 : IVec S64 1 := andi main_v39 main_v41
  let main_c_16 : IVec S_ 1 := constantI S_ 1 1#1
  let main_v43 : IVec S_ 1 := (fun x v => Host.reduce IntOp.andi x v reducesTo_S64_S_d0 h_S_) main_v42 main_c_16
  let main_v44 : IVec S_ 1 := andi main_v37 main_v43
  main_v44

def fn_part1 {F : FTy → Type} [FloatOps F] (main_arg4 : FVec F S200 .f32) (main_arg5 : IVec S64x256 32) (main_arg6 : IVec S64 32) (main_arg7 : IVec S64 32) (main_v13 : IVec S_ 1) (main_v16 : IVec S200x2304 1) : IVec S_ 1 :=
  let main_c_5 : IVec S_ 1 := constantI S_ 1 1#1
  let main_v17 : IVec S_ 1 := (fun x v => Host.reduce IntOp.andi x v reducesTo_S200x2304_S_d0_1 h_S_) main_v16 main_c_5
  let main_v18 : IVec S_ 1 := andi main_v13 main_v17
  let main_v19 : FVec F S200 .f32 := Host.absf main_arg4
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_c_8 : IVec S_ 32 := constantI S_ 32 0#32
  let main_v24 : IVec S64x256 32 := broadcastInDim S64x256 ![] bcast_S_S64x256 main_c_8
  let main_v25 : IVec S64x256 1 := cmpi .sge main_arg5 main_v24
  let main_c_9 : IVec S_ 32 := constantI S_ 32 256#32
  let main_v26 : IVec S64x256 32 := broadcastInDim S64x256 ![] bcast_S_S64x256 main_c_9
  let main_v27 : IVec S64x256 1 := cmpi .slt main_arg5 main_v26
  let main_v28 : IVec S64x256 1 := andi main_v25 main_v27
  let main_c_10 : IVec S_ 1 := constantI S_ 1 1#1
  let main_v29 : IVec S_ 1 := (fun x v => Host.reduce IntOp.andi x v reducesTo_S64x256_S_d0_1 h_S_) main_v28 main_c_10
  let main_v30 : IVec S_ 1 := andi main_v23 main_v29
  let main_c_11 : IVec S_ 32 := constantI S_ 32 0#32
  let main_v31 : IVec S64 32 := broadcastInDim S64 ![] bcast_S_S64 main_c_11
  let main_v32 : IVec S64 1 := cmpi .sge main_arg6 main_v31
  let main_c_12 : IVec S_ 32 := constantI S_ 32 201#32
  fn_part2 (F := F) main_arg6 main_arg7 main_v30 main_v32 main_c_12

def fn {F : FTy → Type} [FloatOps F] (main_arg0 : FVec F S64x256x768 .f32) (main_arg1 : FVec F S513x768 .f32) (main_arg2 : FVec F S201x768 .f32) (main_arg3 : FVec F S200x2304 .f32) (main_arg4 : FVec F S200 .f32) (main_arg5 : IVec S64x256 32) (main_arg6 : IVec S64 32) (main_arg7 : IVec S64 32) : IVec S_ 1 :=
  let main_v0 : FVec F S64x256x768 .f32 := Host.absf main_arg0
  let main_cst : FVec F S_ .f32 := constant S_ .f32 0x7F800000#32
  let main_v1 : FVec F S64x256x768 .f32 := broadcastInDim S64x256x768 ![] bcast_S_S64x256x768 main_cst
  let main_v2 : IVec S64x256x768 1 := cmpf .olt main_v0 main_v1
  let main_c : IVec S_ 1 := constantI S_ 1 1#1
  let main_v3 : IVec S_ 1 := (fun x v => Host.reduce IntOp.andi x v reducesTo_S64x256x768_S_d0_1_2 h_S_) main_v2 main_c
  let main_v4 : FVec F S513x768 .f32 := Host.absf main_arg1
  let main_cst_0 : FVec F S_ .f32 := constant S_ .f32 0x7F800000#32
  let main_v5 : FVec F S513x768 .f32 := broadcastInDim S513x768 ![] bcast_S_S513x768 main_cst_0
  let main_v6 : IVec S513x768 1 := cmpf .olt main_v4 main_v5
  let main_c_1 : IVec S_ 1 := constantI S_ 1 1#1
  let main_v7 : IVec S_ 1 := (fun x v => Host.reduce IntOp.andi x v reducesTo_S513x768_S_d0_1 h_S_) main_v6 main_c_1
  let main_v8 : IVec S_ 1 := andi main_v3 main_v7
  let main_v9 : FVec F S201x768 .f32 := Host.absf main_arg2
  let main_cst_2 : FVec F S_ .f32 := constant S_ .f32 0x7F800000#32
  let main_v10 : FVec F S201x768 .f32 := broadcastInDim S201x768 ![] bcast_S_S201x768 main_cst_2
  let main_v11 : IVec S201x768 1 := cmpf .olt main_v9 main_v10
  let main_c_3 : IVec S_ 1 := constantI S_ 1 1#1
  let main_v12 : IVec S_ 1 := (fun x v => Host.reduce IntOp.andi x v reducesTo_S201x768_S_d0_1 h_S_) main_v11 main_c_3
  let main_v13 : IVec S_ 1 := andi main_v8 main_v12
  let main_v14 : FVec F S200x2304 .f32 := Host.absf main_arg3
  let main_cst_4 : FVec F S_ .f32 := constant S_ .f32 0x7F800000#32
  let main_v15 : FVec F S200x2304 .f32 := broadcastInDim S200x2304 ![] bcast_S_S200x2304 main_cst_4
  let main_v16 : IVec S200x2304 1 := cmpf .olt main_v14 main_v15
  fn_part1 (F := F) main_arg4 main_arg5 main_arg6 main_arg7 main_v13 main_v16
-- ==== Kernel.lean ====
abbrev S64x256x768 : Shape := ⟨3, ![64, 256, 768]⟩
abbrev S513x768 : Shape := ⟨2, ![513, 768]⟩
abbrev S201x768 : Shape := ⟨2, ![201, 768]⟩
abbrev S200x2304 : Shape := ⟨2, ![200, 2304]⟩
abbrev S200 : Shape := ⟨1, ![200]⟩
abbrev S64x256 : Shape := ⟨2, ![64, 256]⟩
abbrev S64 : Shape := ⟨1, ![64]⟩
abbrev S64x256x1 : Shape := ⟨3, ![64, 256, 1]⟩
abbrev S2304x200 : Shape := ⟨2, ![2304, 200]⟩
abbrev S1x200 : Shape := ⟨2, ![1, 200]⟩
abbrev S64x256x200 : Shape := ⟨3, ![64, 256, 200]⟩
abbrev S1x256x768 : Shape := ⟨3, ![1, 256, 768]⟩
abbrev S1x256x1 : Shape := ⟨3, ![1, 256, 1]⟩
abbrev S1x256x200 : Shape := ⟨3, ![1, 256, 200]⟩
abbrev S1 : Shape := ⟨1, ![1]⟩
abbrev S256x768 : Shape := ⟨2, ![256, 768]⟩
abbrev S256x1 : Shape := ⟨2, ![256, 1]⟩
abbrev S1x256 : Shape := ⟨2, ![1, 256]⟩
abbrev S256x256 : Shape := ⟨2, ![256, 256]⟩
abbrev S1x513 : Shape := ⟨2, ![1, 513]⟩
abbrev S256x513 : Shape := ⟨2, ![256, 513]⟩
abbrev S1x201 : Shape := ⟨2, ![1, 201]⟩
abbrev S256x201 : Shape := ⟨2, ![256, 201]⟩
abbrev S256x2304 : Shape := ⟨2, ![256, 2304]⟩
abbrev S256x200 : Shape := ⟨2, ![256, 200]⟩

abbrev nBuf : Space → Nat
  | .hbm => 10
  | .vmem => 10
  | .smem => 2
  | _ => 0

abbrev bufTy : (tb : Table) → Fin (tcTables nBuf tb) → BufTy
  | .hbm, ⟨0, _⟩ => ⟨S64x256x768, .f32⟩
  | .hbm, ⟨1, _⟩ => ⟨S513x768, .f32⟩
  | .hbm, ⟨2, _⟩ => ⟨S201x768, .f32⟩
  | .hbm, ⟨3, _⟩ => ⟨S200x2304, .f32⟩
  | .hbm, ⟨4, _⟩ => ⟨S200, .f32⟩
  | .hbm, ⟨5, _⟩ => ⟨S64x256, .i32⟩
  | .hbm, ⟨6, _⟩ => ⟨S64x256x1, .i32⟩
  | .hbm, ⟨7, _⟩ => ⟨S2304x200, .f32⟩
  | .hbm, ⟨8, _⟩ => ⟨S1x200, .f32⟩
  | .hbm, ⟨9, _⟩ => ⟨S64x256x200, .f32⟩
  | .local _ .vmem, ⟨0, _⟩ => ⟨S1x256x768, .f32⟩
  | .local _ .vmem, ⟨1, _⟩ => ⟨S1x256x768, .f32⟩
  | .local _ .vmem, ⟨2, _⟩ => ⟨S1x256x1, .i32⟩
  | .local _ .vmem, ⟨3, _⟩ => ⟨S1x256x1, .i32⟩
  | .local _ .vmem, ⟨4, _⟩ => ⟨S513x768, .f32⟩
  | .local _ .vmem, ⟨5, _⟩ => ⟨S201x768, .f32⟩
  | .local _ .vmem, ⟨6, _⟩ => ⟨S2304x200, .f32⟩
  | .local _ .vmem, ⟨7, _⟩ => ⟨S1x200, .f32⟩
  | .local _ .vmem, ⟨8, _⟩ => ⟨S1x256x200, .f32⟩
  | .local _ .vmem, ⟨9, _⟩ => ⟨S1x256x200, .f32⟩
  | .local _ .smem, ⟨0, _⟩ => ⟨S64, .i32⟩
  | .local _ .smem, ⟨1, _⟩ => ⟨S64, .i32⟩
  | _, _ => ⟨S64x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg6 : Ref sig .tc := ⟨.smem, 0, rfl⟩
abbrev main_arg7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg6.idx, main_arg7.idx], fun | 0 => main_arg6.names | 1 => main_arg7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S513x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S201x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x256_S64x256x1 : S64x256.ShapeCasts S64x256x1
  transposes_S200x2304_S2304x200_1_0 : S200x2304.Transposes [1, 0] S2304x200
  shapeCasts_S200_S1x200 : S200.ShapeCasts S1x200
  numel1_S1 : S1.numel = 1
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  iota_S256x1_d0_w32 : S256x1.Iotas .tc 32 [0]
  iota_S1x256_d1_w32 : S1x256.Iotas .tc 32 [1]
  broadcasts_S256x1_S256x256 : S256x1.Broadcasts S256x256
  broadcasts_S1x256_S256x256 : S1x256.Broadcasts S256x256
  natLt_1_32 : 1 < 32
  bitsLt_bf16_f32 : FTy.bits .bf16 < FTy.bits .f32
  iota_S1x513_d1_w32 : S1x513.Iotas .tc 32 [1]
  broadcasts_S256x1_S256x513 : S256x1.Broadcasts S256x513
  broadcasts_S1x513_S256x513 : S1x513.Broadcasts S256x513
  inb_S513x768_S513x768_0_0 : ∀ a, (![0, 0] : Fin 2 → Nat) a + S513x768.size a ≤ S513x768.size a
  h_S513x768 : 0 < S513x768.numel
  iota_S1x201_d1_w32 : S1x201.Iotas .tc 32 [1]
  broadcasts_S256x1_S256x201 : S256x1.Broadcasts S256x201
  broadcasts_S1x201_S256x201 : S1x201.Broadcasts S256x201
  inb_S201x768_S201x768_0_0 : ∀ a, (![0, 0] : Fin 2 → Nat) a + S201x768.size a ≤ S201x768.size a
  h_S201x768 : 0 < S201x768.numel
  concatenates_S256x768_S256x768_S256x768_S256x2304_d1 : Shape.Concatenates [S256x768, S256x768, S256x768] S256x2304 1
  inb_S2304x200_S2304x200_0_0 : ∀ a, (![0, 0] : Fin 2 → Nat) a + S2304x200.size a ≤ S2304x200.size a
  h_S2304x200 : 0 < S2304x200.numel
  shapeCasts_S2304x200_S2304x200 : S2304x200.ShapeCasts S2304x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S256x200 : S1x200.Broadcasts S256x200
  inb_S1x256x200_S1x256x200_0_0_0 : ∀ a, (![0, 0, 0] : Fin 3 → Nat) a + S1x256x200.size a ≤ S1x256x200.size a
  h_S1x256x200 : 0 < S1x256x200.numel
  shapeCasts_S1x256x200_S256x200 : S1x256x200.ShapeCasts S256x200
  shapeCasts_S256x200_S1x256x200 : S256x200.ShapeCasts S1x256x200
  dot_S256x256_S256x768_S256x768_1_0_0_1_n_n_wf : DotDims.WF S256x256 S256x768 S256x768 [1] [0] [0] [1] [] []
  dot_S256x513_S513x768_S256x768_1_0_0_1_n_n_wf : DotDims.WF S256x513 S513x768 S256x768 [1] [0] [0] [1] [] []
  dot_S256x201_S201x768_S256x768_1_0_0_1_n_n_wf : DotDims.WF S256x201 S201x768 S256x768 [1] [0] [0] [1] [] []
  dot_S256x2304_S2304x200_S256x200_1_0_0_1_n_n_wf : DotDims.WF S256x2304 S2304x200 S256x200 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S64x256x768.size a
  hwx0_0 : ∀ i : grid0.Coords, EltTy.bits .f32 = 32 ∨ (Rect.block (s := S64x256x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S64x256x1.size a
  hwx0_1 : ∀ i : grid0.Coords, EltTy.bits .i32 = 32 ∨ (Rect.block (s := S64x256x1) S1x256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S513x768.size a ≤ S513x768.size a
  hwx0_2 : ∀ i : grid0.Coords, EltTy.bits .f32 = 32 ∨ (Rect.block (s := S513x768) S513x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S201x768.size a ≤ S201x768.size a
  hwx0_3 : ∀ i : grid0.Coords, EltTy.bits .f32 = 32 ∨ (Rect.block (s := S201x768) S201x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2304x200.size a ≤ S2304x200.size a
  hwx0_4 : ∀ i : grid0.Coords, EltTy.bits .f32 = 32 ∨ (Rect.block (s := S2304x200) S2304x200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x200.size a ≤ S1x200.size a
  hwx0_5 : ∀ i : grid0.Coords, EltTy.bits .f32 = 32 ∨ (Rect.block (s := S1x200) S1x200.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x200.size a ≤ S64x256x200.size a
  hwx0_6 : ∀ i : grid0.Coords, EltTy.bits .f32 = 32 ∨ (Rect.block (s := S64x256x200) S1x256x200.size (cc0_transform_6 i) (hinb0_6 i)).WholeWords (EltTy.packing .f32)

variable [Facts₀]

def dot_S256x256_S256x768_S256x768_1_0_0_1_n_n : DotDims S256x256 S256x768 S256x768 where
  lhsContracting := [1]
  rhsContracting := [0]
  lhsNonContracting := [0]
  rhsNonContracting := [1]
  lhsBatch := []
  rhsBatch := []
  wf := dot_S256x256_S256x768_S256x768_1_0_0_1_n_n_wf
def dot_S256x513_S513x768_S256x768_1_0_0_1_n_n : DotDims S256x513 S513x768 S256x768 where
  lhsContracting := [1]
  rhsContracting := [0]
  lhsNonContracting := [0]
  rhsNonContracting := [1]
  lhsBatch := []
  rhsBatch := []
  wf := dot_S256x513_S513x768_S256x768_1_0_0_1_n_n_wf
def dot_S256x201_S201x768_S256x768_1_0_0_1_n_n : DotDims S256x201 S201x768 S256x768 where
  lhsContracting := [1]
  rhsContracting := [0]
  lhsNonContracting := [0]
  rhsNonContracting := [1]
  lhsBatch := []
  rhsBatch := []
  wf := dot_S256x201_S201x768_S256x768_1_0_0_1_n_n_wf
def dot_S256x2304_S2304x200_S256x200_1_0_0_1_n_n : DotDims S256x2304 S2304x200 S256x200 where
  lhsContracting := [1]
  rhsContracting := [0]
  lhsNonContracting := [0]
  rhsNonContracting := [1]
  lhsBatch := []
  rhsBatch := []
  wf := dot_S256x2304_S2304x200_S256x200_1_0_0_1_n_n_wf

abbrev spec0_0 : Pipeline.WinSpec sig grid0.rank :=
  Pipeline.WinSpec.ofSpec (Memref.whole main_arg0) S1x256x768.size reads0_0 false false 2 stage0_0 sem0_0 nbuf0_0 hstage0_0

abbrev spec0_1 : Pipeline.WinSpec sig grid0.rank :=
  Pipeline.WinSpec.ofSpec (Memref.whole main_v0) S1x256x1.size reads0_1 false false 2 stage0_1 sem0_1 nbuf0_1 hstage0_1

abbrev spec0_2 : Pipeline.WinSpec sig grid0.rank :=
  Pipeline.WinSpec.ofSpec (Memref.whole main_arg1) S513x768.size reads0_2 false true 1 stage0_2 sem0_2 nbuf0_2 hstage0_2

abbrev spec0_3 : Pipeline.WinSpec sig grid0.rank :=
  Pipeline.WinSpec.ofSpec (Memref.whole main_arg2) S201x768.size reads0_3 false true 1 stage0_3 sem0_3 nbuf0_3 hstage0_3

abbrev spec0_4 : Pipeline.WinSpec sig grid0.rank :=
  Pipeline.WinSpec.ofSpec (Memref.whole main_v1) S2304x200.size reads0_4 false true 1 stage0_4 sem0_4 nbuf0_4 hstage0_4

abbrev spec0_5 : Pipeline.WinSpec sig grid0.rank :=
  Pipeline.WinSpec.ofSpec (Memref.whole main_v2) S1x200.size reads0_5 false true 1 stage0_5 sem0_5 nbuf0_5 hstage0_5

abbrev spec0_6 : Pipeline.WinSpec sig grid0.rank :=
  Pipeline.WinSpec.ofSpec (Memref.whole main_v3) S1x256x200.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S64x256x768 : Shape := ⟨3, ![64, 256, 768]⟩
abbrev S513x768 : Shape := ⟨2, ![513, 768]⟩
abbrev S201x768 : Shape := ⟨2, ![201, 768]⟩
abbrev S200x2304 : Shape := ⟨2, ![200, 2304]⟩
abbrev S200 : Shape := ⟨1, ![200]⟩
abbrev S64x256 : Shape := ⟨2, ![64, 256]⟩
abbrev S64 : Shape := ⟨1, ![64]⟩
abbrev S64x256x1 : Shape := ⟨3, ![64, 256, 1]⟩
abbrev S_ : Shape := ⟨0, ![]⟩
abbrev S1 : Shape := ⟨1, ![1]⟩
abbrev S1x1x1 : Shape := ⟨3, ![1, 1, 1]⟩
abbrev S256 : Shape := ⟨1, ![256]⟩
abbrev S1x256 : Shape := ⟨2, ![1, 256]⟩
abbrev S64x1 : Shape := ⟨2, ![64, 1]⟩
abbrev S64x768 : Shape := ⟨2, ![64, 768]⟩
abbrev S64x1x768 : Shape := ⟨3, ![64, 1, 768]⟩
abbrev S1x768 : Shape := ⟨2, ![1, 768]⟩
abbrev S768 : Shape := ⟨1, ![768]⟩
abbrev S1x1x768 : Shape := ⟨3, ![1, 1, 768]⟩
abbrev S64x256x2304 : Shape := ⟨3, ![64, 256, 2304]⟩
abbrev S64x256x200 : Shape := ⟨3, ![64, 256, 200]⟩
abbrev S1x1x200 : Shape := ⟨3, ![1, 1, 200]⟩

abbrev nBuf : Space → Nat
  | .hbm => 77
  | .vmem => 0
  | .smem => 0
  | _ => 0

abbrev bufTy : (tb : Table) → Fin (tcTables nBuf tb) → BufTy
  | .hbm, ⟨0, _⟩ => ⟨S64x256x768, .f32⟩
  | .hbm, ⟨1, _⟩ => ⟨S513x768, .f32⟩
  | .hbm, ⟨2, _⟩ => ⟨S201x768, .f32⟩
  | .hbm, ⟨3, _⟩ => ⟨S200x2304, .f32⟩
  | .hbm, ⟨4, _⟩ => ⟨S200, .f32⟩
  | .hbm, ⟨5, _⟩ => ⟨S64x256, .i32⟩
  | .hbm, ⟨6, _⟩ => ⟨S64, .i32⟩
  | .hbm, ⟨7, _⟩ => ⟨S64, .i32⟩
  | .hbm, ⟨8, _⟩ => ⟨S64x256x1, .i32⟩
  | .hbm, ⟨9, _⟩ => ⟨S_, .i32⟩
  | .hbm, ⟨10, _⟩ => ⟨S64x256x1, .i32⟩
  | .hbm, ⟨11, _⟩ => ⟨S64x256x1, .i1⟩
  | .hbm, ⟨12, _⟩ => ⟨S_, .i32⟩
  | .hbm, ⟨13, _⟩ => ⟨S64x256x1, .i32⟩
  | .hbm, ⟨14, _⟩ => ⟨S64x256x1, .i32⟩
  | .hbm, ⟨15, _⟩ => ⟨S64x256x1, .i32⟩
  | .hbm, ⟨16, _⟩ => ⟨S1, .i32⟩
  | .hbm, ⟨17, _⟩ => ⟨S_, .i32⟩
  | .hbm, ⟨18, _⟩ => ⟨S64x256x1, .i32⟩
  | .hbm, ⟨19, _⟩ => ⟨S64x256x1, .i1⟩
  | .hbm, ⟨20, _⟩ => ⟨S1x1x1, .i32⟩
  | .hbm, ⟨21, _⟩ => ⟨S64x256x1, .i32⟩
  | .hbm, ⟨22, _⟩ => ⟨S64x256x1, .i1⟩
  | .hbm, ⟨23, _⟩ => ⟨S64x256x1, .i1⟩
  | .hbm, ⟨24, _⟩ => ⟨S_, .i1⟩
  | .hbm, ⟨25, _⟩ => ⟨S64x256, .i1⟩
  | .hbm, ⟨26, _⟩ => ⟨S64x256x768, .f32⟩
  | .hbm, ⟨27, _⟩ => ⟨S64x256x768, .i1⟩
  | .hbm, ⟨28, _⟩ => ⟨S_, .f32⟩
  | .hbm, ⟨29, _⟩ => ⟨S64x256x768, .f32⟩
  | .hbm, ⟨30, _⟩ => ⟨S64x256x768, .f32⟩
  | .hbm, ⟨31, _⟩ => ⟨S256, .i32⟩
  | .hbm, ⟨32, _⟩ => ⟨S1x256, .i32⟩
  | .hbm, ⟨33, _⟩ => ⟨S64x1, .i32⟩
  | .hbm, ⟨34, _⟩ => ⟨S64x256, .i32⟩
  | .hbm, ⟨35, _⟩ => ⟨S64x256, .i32⟩
  | .hbm, ⟨36, _⟩ => ⟨S64x256, .i32⟩
  | .hbm, ⟨37, _⟩ => ⟨S_, .i32⟩
  | .hbm, ⟨38, _⟩ => ⟨S64x256, .i32⟩
  | .hbm, ⟨39, _⟩ => ⟨S64x256, .i32⟩
  | .hbm, ⟨40, _⟩ => ⟨S_, .i32⟩
  | .hbm, ⟨41, _⟩ => ⟨S64x256, .i32⟩
  | .hbm, ⟨42, _⟩ => ⟨S64x256, .i1⟩
  | .hbm, ⟨43, _⟩ => ⟨S_, .i32⟩
  | .hbm, ⟨44, _⟩ => ⟨S64x256, .i32⟩
  | .hbm, ⟨45, _⟩ => ⟨S64x256, .i32⟩
  | .hbm, ⟨46, _⟩ => ⟨S64x256, .i32⟩
  | .hbm, ⟨47, _⟩ => ⟨S64x256x1, .i32⟩
  | .hbm, ⟨48, _⟩ => ⟨S64x256x768, .f32⟩
  | .hbm, ⟨49, _⟩ => ⟨S_, .i32⟩
  | .hbm, ⟨50, _⟩ => ⟨S64, .i32⟩
  | .hbm, ⟨51, _⟩ => ⟨S64, .i1⟩
  | .hbm, ⟨52, _⟩ => ⟨S_, .i32⟩
  | .hbm, ⟨53, _⟩ => ⟨S64, .i32⟩
  | .hbm, ⟨54, _⟩ => ⟨S64, .i32⟩
  | .hbm, ⟨55, _⟩ => ⟨S64, .i32⟩
  | .hbm, ⟨56, _⟩ => ⟨S64x1, .i32⟩
  | .hbm, ⟨57, _⟩ => ⟨S64x768, .f32⟩
  | .hbm, ⟨58, _⟩ => ⟨S1x256, .i32⟩
  | .hbm, ⟨59, _⟩ => ⟨S64x1, .i32⟩
  | .hbm, ⟨60, _⟩ => ⟨S64x256, .i32⟩
  | .hbm, ⟨61, _⟩ => ⟨S64x256, .i32⟩
  | .hbm, ⟨62, _⟩ => ⟨S64x256, .i1⟩
  | .hbm, ⟨63, _⟩ => ⟨S64x256x1, .i1⟩
  | .hbm, ⟨64, _⟩ => ⟨S64x1x768, .f32⟩
  | .hbm, ⟨65, _⟩ => ⟨S1x768, .f32⟩
  | .hbm, ⟨66, _⟩ => ⟨S768, .f32⟩
  | .hbm, ⟨67, _⟩ => ⟨S1x1x768, .f32⟩
  | .hbm, ⟨68, _⟩ => ⟨S64x256x768, .i1⟩
  | .hbm, ⟨69, _⟩ => ⟨S64x256x768, .f32⟩
  | .hbm, ⟨70, _⟩ => ⟨S64x256x768, .f32⟩
  | .hbm, ⟨71, _⟩ => ⟨S64x256x768, .f32⟩
  | .hbm, ⟨72, _⟩ => ⟨S64x256x2304, .f32⟩
  | .hbm, ⟨73, _⟩ => ⟨S64x256x200, .f32⟩
  | .hbm, ⟨74, _⟩ => ⟨S1x1x200, .f32⟩
  | .hbm, ⟨75, _⟩ => ⟨S64x256x200, .f32⟩
  | .hbm, ⟨76, _⟩ => ⟨S64x256x200, .f32⟩
  | _, _ => ⟨S64x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_c : Ref sig .tc := ⟨.hbm, 37, rfl⟩
abbrev main_v8 : Ref sig .tc := ⟨.hbm, 38, rfl⟩
abbrev main_v9 : Ref sig .tc := ⟨.hbm, 39, rfl⟩
abbrev main_c_0 : Ref sig .tc := ⟨.hbm, 40, rfl⟩
abbrev main_v10 : Ref sig .tc := ⟨.hbm, 41, rfl⟩
abbrev main_v11 : Ref sig .tc := ⟨.hbm, 42, rfl⟩
abbrev main_c_1 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c_2 : Ref sig .tc := ⟨.hbm, 49, rfl⟩
abbrev main_v17 : Ref sig .tc := ⟨.hbm, 50, rfl⟩
abbrev main_v18 : Ref sig .tc := ⟨.hbm, 51, rfl⟩
abbrev main_c_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩

abbrev nD : Nat := 1
abbrev τ : Topo := Topo.v7x

variable {F : FTy → Type} [FloatOps F]

class Facts₀ : Prop where
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S1_S1x1x1_2 : S1.BroadcastsInDim S1x1x1 (![2] : Fin 1 → Fin S1x1x1.rank)
  bcast_S1x1x1_S64x256x1_0_1_2 : S1x1x1.BroadcastsInDim S64x256x1 (![0, 1, 2] : Fin 3 → Fin S64x256x1.rank)
  reducesTo_S64x256x1_S64x256_d2 : S64x256x1.ReducesTo [2] S64x256
  h_S_ : 0 < S_.numel
  bcast_S64x256_S64x256x768_0_1 : S64x256.BroadcastsInDim S64x256x768 (![0, 1] : Fin 2 → Fin S64x256x768.rank)
  bcast_S_S64x256x768 : S_.BroadcastsInDim S64x256x768 (![] : Fin 0 → Fin S64x256x768.rank)
  bcast_S256_S1x256_1 : S256.BroadcastsInDim S1x256 (![1] : Fin 1 → Fin S1x256.rank)
  bcast_S64_S64x1_0 : S64.BroadcastsInDim S64x1 (![0] : Fin 1 → Fin S64x1.rank)
  bcast_S1x256_S64x256_0_1 : S1x256.BroadcastsInDim S64x256 (![0, 1] : Fin 2 → Fin S64x256.rank)
  bcast_S64x1_S64x256_0_1 : S64x1.BroadcastsInDim S64x256 (![0, 1] : Fin 2 → Fin S64x256.rank)
  bcast_S_S64x256 : S_.BroadcastsInDim S64x256 (![] : Fin 0 → Fin S64x256.rank)
  bcast_S_S64 : S_.BroadcastsInDim S64 (![] : Fin 0 → Fin S64.rank)
  bcast_S64x768_S64x1x768_0_2 : S64x768.BroadcastsInDim S64x1x768 (![0, 2] : Fin 2 → Fin S64x1x768.rank)
  slices_S201x768_S1x768_0_0 : S201x768.Slices ![0, 0] S1x768
  shapeCasts_S1x768_S768 : S1x768.ShapeCasts S768
  bcast_S768_S1x1x768_2 : S768.BroadcastsInDim S1x1x768 (![2] : Fin 1 → Fin S1x1x768.rank)
  bcast_S64x256x1_S64x256x768_0_1_2 : S64x256x1.BroadcastsInDim S64x256x768 (![0, 1, 2] : Fin 3 → Fin S64x256x768.rank)
  bcast_S64x1x768_S64x256x768_0_1_2 : S64x1x768.BroadcastsInDim S64x256x768 (![0, 1, 2] : Fin 3 → Fin S64x256x768.rank)
  bcast_S1x1x768_S64x256x768_0_1_2 : S1x1x768.BroadcastsInDim S64x256x768 (![0, 1, 2] : Fin 3 → Fin S64x256x768.rank)
  concatenates_S64x256x768_S64x256x768_S64x256x768_S64x256x2304_d2 : Shape.Concatenates [S64x256x768, S64x256x768, S64x256x768] S64x256x2304 2
  bcast_S200_S1x1x200_2 : S200.BroadcastsInDim S1x1x200 (![2] : Fin 1 → Fin S1x1x200.rank)
  bcast_S1x1x200_S64x256x200_0_1_2 : S1x1x200.BroadcastsInDim S64x256x200 (![0, 1, 2] : Fin 3 → Fin S64x256x200.rank)
  gather_S64x256x768_S64x256x1_S64x256x768_2_1_0_0_1_2_11768_wf : GatherDims.WF S64x256x768 S64x256x1 S64x256x768 [2] [1] [0] [1] [0] 2 ![1, 1, 768]
  gather_S513x768_S64x256x1_S64x256x768_2_0_n_n_0_2_1768_wf : GatherDims.WF S513x768 S64x256x1 S64x256x768 [2] [0] [] [0] [] 2 ![1, 768]
  gather_S201x768_S64x1_S64x768_1_0_n_n_0_1_1768_wf : GatherDims.WF S201x768 S64x1 S64x768 [1] [0] [] [0] [] 1 ![1, 768]
  dot_S64x256x2304_S200x2304_S64x256x200_2_1_01_0_n_n_wf : DotDims.WF S64x256x2304 S200x2304 S64x256x200 [2] [1] [0, 1] [0] [] []

variable [Facts₀]

def gather_S64x256x768_S64x256x1_S64x256x768_2_1_0_0_1_2_11768 : GatherDims S64x256x768 S64x256x1 S64x256x768 where
  offsetDims := [2]
  collapsedSliceDims := [1]
  operandBatchingDims := [0]
  startIndicesBatchingDims := [0]
  startIndexMap := [1]
  indexVectorDim := 2
  sliceSizes := ![1, 1, 768]
  wf := gather_S64x256x768_S64x256x1_S64x256x768_2_1_0_0_1_2_11768_wf
def gather_S513x768_S64x256x1_S64x256x768_2_0_n_n_0_2_1768 : GatherDims S513x768 S64x256x1 S64x256x768 where
  offsetDims := [2]
  collapsedSliceDims := [0]
  operandBatchingDims := []
  startIndicesBatchingDims := []
  startIndexMap := [0]
  indexVectorDim := 2
  sliceSizes := ![1, 768]
  wf := gather_S513x768_S64x256x1_S64x256x768_2_0_n_n_0_2_1768_wf
def gather_S201x768_S64x1_S64x768_1_0_n_n_0_1_1768 : GatherDims S201x768 S64x1 S64x768 where
  offsetDims := [1]
  collapsedSliceDims := [0]
  operandBatchingDims := []
  startIndicesBatchingDims := []
  startIndexMap := [0]
  indexVectorDim := 1
  sliceSizes := ![1, 768]
  wf := gather_S201x768_S64x1_S64x768_1_0_n_n_0_1_1768_wf
def dot_S64x256x2304_S200x2304_S64x256x200_2_1_01_0_n_n : DotDims S64x256x2304 S200x2304 S64x256x200 where
  lhsContracting := [2]
  rhsContracting := [1]
  lhsNonContracting := [0, 1]
  rhsNonContracting := [0]
  lhsBatch := []
  rhsBatch := []
  wf := dot_S64x256x2304_S200x2304_S64x256x200_2_1_01_0_n_n_wf

class Facts : Prop extends Facts₀ where

variable [Facts]
-- ==== Proof.KPiece.lean ====
/-
  What one grid point leaves in the output block.

  At grid point `i` the body reads the frame word and the position word of batch entry `i 0` from the two prefetched
  tables, loads its six input blocks whole, and stores one value over the whole output block. So the output block after
  the body is the body's arithmetic (`k0_pay1` over `k0_pay2`, `k0_pay3`, `k0_pay4`) of the input blocks and of those
  two words, and the word read from a table `X` at the point is `X`'s entry `i 0`.
-/
import proofs.«427339_j66657892433950_1_alg».proof.Proof.Gen.KernelIdeal.Frame
import Idealize.ShloMosaic.Lib.Pipeline.Value
import Idealize.ShloMosaic.Lib.ValueIdx

set_option maxRecDepth 16384

noncomputable section

namespace Cert.KernelIdeal.Piece

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

theorem off3_zero : (![0, 0, 0] : Fin 3 → Nat) = fun _ => 0 := by
  funext a; match a with | ⟨0, _⟩ => rfl | ⟨1, _⟩ => rfl | ⟨2, _⟩ => rfl
theorem off2_zero : (![0, 0] : Fin 2 → Nat) = fun _ => 0 := by
  funext a; match a with | ⟨0, _⟩ => rfl | ⟨1, _⟩ => rfl

/-- The one word the body reads from a 64-word table `X` at grid point `i`. -/
def wordAt (X : S64.Idx → Elt F .i32) (i : grid0.Coords) : Elt F .i32 :=
  View.ld X (Rect.unit (s := S64) (k0_off1 i) S1.size (k0_off1_inb i)) (Shape.Idx.first (numel1_S1.symm ▸ Nat.one_pos))

/-- The output block after the body at point `i`: the body's arithmetic of the input blocks and of the two table
    words at the point. -/
theorem out_block_eq (c : Dev nD) (i : grid0.Coords) (arg3 : Memref sig .tc .vmem S1x256x768 .f32) (harg3 : arg3.IsWhole) (arg4 : Memref sig .tc .vmem S1x256x1 .i32) (harg4 : arg4.IsWhole) (arg5 : Memref sig .tc .vmem S513x768 .f32) (harg5 : arg5.IsWhole) (arg6 : Memref sig .tc .vmem S201x768 .f32) (harg6 : arg6.IsWhole) (arg7 : Memref sig .tc .vmem S2304x200 .f32) (harg7 : arg7.IsWhole) (arg8 : Memref sig .tc .vmem S1x200 .f32) (harg8 : arg8.IsWhole) (arg9 : Memref sig .tc .vmem S1x256x200 .f32) (harg9 : arg9.IsWhole)
    (x0 : Vec F S1x256x768 .f32) (x1 : Vec F S1x256x1 .i32) (x2 : Vec F S513x768 .f32) (x3 : Vec F S201x768 .f32) (x4 : Vec F S2304x200 .f32) (x5 : Vec F S1x200 .f32) (xt0 : TbBuf0 (F := F) c tbM0_0) (xt1 : TbBuf0 (F := F) c tbM0_1) :
    out0_A_6 c i arg3 harg3 arg4 harg4 arg5 harg5 arg6 harg6 arg7 harg7 arg8 harg8 arg9 harg9 x0 x1 x2 x3 x4 x5 xt0 xt1
      = k0_pay1 (k0_pay2 x0 x1) (k0_pay3 (wordAt (View.read (Elt F) (View.whole main_arg7) xt1) i) x2)
          (k0_pay4 (wordAt (View.read (Elt F) (View.whole main_arg6) xt0) i) (wordAt (View.read (Elt F) (View.whole main_arg7) xt1) i))
          x3 x4 x5 := by
  unfold out0_A_6
  rw [View.read_writes_eq_canon _ _ _ (cover0_A_6 c i arg3 harg3 arg4 harg4 arg5 harg5 arg6 harg6 arg7 harg7 arg8 harg8 arg9 harg9 x0 x1 x2 x3 x4 x5 xt0 xt1)]
  unfold kernelRun0_A
  dsimp only
  sl_unfold_words
  rw [View.canon_unit_zero off3_zero]
  simp only [View.readAt_eq_ld, harg3.read_unread, harg4.read_unread, harg5.read_unread, harg6.read_unread, harg7.read_unread, harg8.read_unread,
    View.ld_unit_zero (S := S1x256x768) off3_zero, View.ld_unit_zero (S := S1x256x1) off3_zero, View.ld_unit_zero (S := S513x768) off2_zero,
    View.ld_unit_zero (S := S201x768) off2_zero, View.ld_unit_zero (S := S2304x200) off2_zero, View.ld_unit_zero (S := S1x200) off2_zero]
  rfl

/-- The word read at point `i` is the table's entry `i 0`. -/
theorem wordAt_eq (X : S64.Idx → Elt F .i32) (i : grid0.Coords) :
    wordAt X i = X (ix1 (⟨(i 0).val, (i 0).isLt⟩ : Fin 64)) := by
  unfold wordAt
  show X _ = X _
  congr 1
  funext a
  match a with
  | ⟨0, _⟩ =>
    apply Fin.ext
    have h64 : (i 0).val < 64 := (i 0).isLt
    show (BitVec.ofNat 32 (i 0).val).toNat + 1 * 0 = (i 0).val
    rw [BitVec.toNat_ofNat]
    omega

end Cert.KernelIdeal.Piece

end
-- ==== Proof.Spec.lean ====
/-
  The specification: what both programs compute, as one function of the argument arrays.

  For a batch entry `b`, a token position `l` and a label `c`,

      out[b, l, c] = (∑ f < 2304, feat[b, l, f] * W[c, f]) + bias[c],

  where the feature row `feat[b, l, ·]` is three rows of 768 laid side by side:
  the token row `seq[b, head[b, l], ·]`, the relative-position row `pe[l - pos[b] + 256, ·]`, and the class row
  `cls[frame[b], ·]` at the one position `l = pos[b]` and `cls[0, ·]` at every other position.

  The integer inputs are 32-bit words; the rows they name are taken through `toNat` and cut off at the table's last
  row, so that the functions below are total. On the domain `Ranges` (every index inside its table) the cut-off never
  binds, and both programs are shown to compute `G` there.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

abbrev S64x256x768 : Shape := ⟨3, ![64, 256, 768]⟩
abbrev S513x768 : Shape := ⟨2, ![513, 768]⟩
abbrev S201x768 : Shape := ⟨2, ![201, 768]⟩
abbrev S200x2304 : Shape := ⟨2, ![200, 2304]⟩
abbrev S200 : Shape := ⟨1, ![200]⟩
abbrev S64x256 : Shape := ⟨2, ![64, 256]⟩
abbrev S64 : Shape := ⟨1, ![64]⟩
abbrev S64x256x200 : Shape := ⟨3, ![64, 256, 200]⟩

/-- The domain: every token index names a row of the 256-row sequence, every frame label a row of the 201-row class
    table, every position a place of the 256-long sequence. (A word whose `toNat` is below `2^31` is non-negative as
    a signed integer, so this is `0 ≤ x < n` in the signed reading.) -/
structure Ranges (head : IVec S64x256 32) (frame pos : IVec S64 32) : Prop where
  head : ∀ (b : Fin 64) (l : Fin 256), (head (ix2 b l)).toNat < 256
  frame : ∀ b : Fin 64, (frame (ix1 b)).toNat < 201
  pos : ∀ b : Fin 64, (pos (ix1 b)).toNat < 256

/-- The token row a head word names (cut off at the last row). -/
def headRow (h : BitVec 32) : Fin 256 := ⟨min h.toNat 255, by omega⟩
/-- The relative-position row of place `l` for position word `ps`: `l - pos + 256` (cut off at the last row). -/
def relRow (ps : BitVec 32) (l : Fin 256) : Fin 513 := ⟨min (l.val + 256 - ps.toNat) 512, by omega⟩
/-- The class row of place `l`: the frame's row at the place `pos`, row 0 elsewhere. -/
def clsRow (fr ps : BitVec 32) (l : Fin 256) : Fin 201 :=
  if l.val = ps.toNat then ⟨min fr.toNat 200, by omega⟩ else ⟨0, by omega⟩

/-- One feature row: the token row, the relative-position row and the class row side by side. `seqB k d` is the
    batch entry's sequence, `h l` its head word at place `l`, `fr` and `ps` its frame and position words. -/
def featRow (seqB : Fin 256 → Fin 768 → EReal) (pe : S513x768.Idx → EReal) (cls : S201x768.Idx → EReal)
    (h : Fin 256 → BitVec 32) (fr ps : BitVec 32) (l : Fin 256) (f : Fin 2304) : EReal :=
  if h1 : f.val < 768 then seqB (headRow (h l)) ⟨f.val, h1⟩
  else if h2 : f.val < 1536 then pe (ix2 (relRow ps l) (⟨f.val - 768, by omega⟩ : Fin 768))
  else cls (ix2 (clsRow fr ps l) (⟨f.val - 1536, by omega⟩ : Fin 768))

/-- The result at `(b, l, c)`. -/
def Gat (x0 : S64x256x768.Idx → EReal) (x1 : S513x768.Idx → EReal) (x2 : S201x768.Idx → EReal)
    (x3 : S200x2304.Idx → EReal) (x4 : S200.Idx → EReal) (x5 : IVec S64x256 32) (x6 x7 : IVec S64 32)
    (b : Fin 64) (l : Fin 256) (c : Fin 200) : EReal :=
  (∑ f : Fin 2304, featRow (fun k d => x0 (ix3 b k d)) x1 x2 (fun l' => x5 (ix2 b l')) (x6 (ix1 b)) (x7 (ix1 b)) l f
      * x3 (ix2 c f)) + x4 (ix1 c)

/-- The result array. -/
def G (x0 : S64x256x768.Idx → EReal) (x1 : S513x768.Idx → EReal) (x2 : S201x768.Idx → EReal)
    (x3 : S200x2304.Idx → EReal) (x4 : S200.Idx → EReal) (x5 : IVec S64x256 32) (x6 x7 : IVec S64 32) :
    S64x256x200.Idx → EReal :=
  fun i => Gat x0 x1 x2 x3 x4 x5 x6 x7 (i 0) (i 1) (i 2)

theorem G_apply (x0 : S64x256x768.Idx → EReal) (x1 : S513x768.Idx → EReal) (x2 : S201x768.Idx → EReal)
    (x3 : S200x2304.Idx → EReal) (x4 : S200.Idx → EReal) (x5 : IVec S64x256 32) (x6 x7 : IVec S64 32)
    (b : Fin 64) (l : Fin 256) (c : Fin 200) :
    G x0 x1 x2 x3 x4 x5 x6 x7 (ix3 b l c) = Gat x0 x1 x2 x3 x4 x5 x6 x7 b l c := rfl

end Cert.Spec

end
-- ==== Proof.OneHotSum.lean ====
/-
  A sum weighted by a one-hot row picks one term.

  On the extended reals `0 * x = 0` and `1 * x = x` for every `x` (the infinities included), so a sum over a
  finite index type of `w k * f k`, where the weight `w k` is one at a single index `a` and zero elsewhere, is `f a`.
  This is how a matrix product with a one-hot left factor reads a row of its right factor.
-/
import Idealize.ShloMosaic.PureOps.Ideal
import Mathlib.Algebra.BigOperators.Fin

namespace Cert.OneHotSum

open Finset

/-- A sum of `w k * f k` whose weight is `1` at `a` and `0` elsewhere is `f a`. -/
theorem sum_onehot_mul {ι : Type*} [Fintype ι] [DecidableEq ι] (a : ι) (w f : ι → EReal)
    (hw : ∀ k, w k = if k = a then 1 else 0) : ∑ k, w k * f k = f a := by
  rw [Finset.sum_eq_single a]
  · rw [hw a, if_pos rfl, one_mul]
  · intro k _ hk
    rw [hw k, if_neg hk, zero_mul]
  · intro h
    exact absurd (Finset.mem_univ a) h

/-- The same with the weight decided by a proposition `p k` that holds exactly at `a`. -/
theorem sum_onehot_mul_of_iff {ι : Type*} [Fintype ι] [DecidableEq ι] (a : ι) (w f : ι → EReal)
    (p : ι → Prop) [DecidablePred p] (hp : ∀ k, p k ↔ k = a)
    (hw : ∀ k, w k = if p k then 1 else 0) : ∑ k, w k * f k = f a := by
  refine sum_onehot_mul a w f fun k => ?_
  rw [hw k]
  by_cases h : k = a
  · rw [if_pos h, if_pos ((hp k).mpr h)]
  · rw [if_neg h, if_neg (fun hk => h ((hp k).mp hk))]

end Cert.OneHotSum
-- ==== Proof.KRows.lean ====
/-
  The three looked-up rows of the kernel body, read at an index.

  The body never indexes a table: it compares a column of integer words with a row of `0, 1, 2, …`, turns the
  comparison into a matrix of zeros and ones, and multiplies that matrix with the table. Where the word names a row of
  the table exactly one entry of the matrix row is one, and the product's row is that table row (a sum weighted by a
  one-hot row picks one term: `Cert.OneHotSum`). Changes of float format are the identity on the extended reals.
-/
import proofs.«427339_j66657892433950_1_alg».proof.Proof.Gen.KernelIdeal.Skeleton
import proofs.«427339_j66657892433950_1_alg».proof.Proof.Spec
import proofs.«427339_j66657892433950_1_alg».proof.Proof.OneHotSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Rows

open Cert.KernelIdeal Cert.KernelIdeal.Gen Idealize.ShloMosaic Idealize.ShloMosaic.ValueIdx

/-! ## Reading the pieces at an index -/

section Column
variable {α : Type}

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- A comparison of two vectors of words at an index compares the two words. -/
theorem cmpi_apply {s : Shape} {w : ℕ} (p : CmpIPredicate) (x y : IVec s w) (i : s.Idx) :
    cmpi p x y i = IntOp.cmpi p (x i) (y i) := rfl

/-- The equality comparison's bit is one exactly when the words are equal. -/
theorem cmpi_eq_one_iff (x y : BitVec 32) : IntOp.cmpi .eq x y = 1#1 ↔ x = y := by
  have hb : ∀ b : Bool, BitVec.ofBool b = 1#1 ↔ b = true := by decide
  show BitVec.ofBool (x == y) = 1#1 ↔ x = y
  rw [hb, beq_iff_eq]

/-- A comparison bit widened to a word and converted is one where the words agree and zero elsewhere. -/
theorem onehot_word (x y : BitVec 32) :
    (FloatOps.sitofp .f32 ((IntOp.cmpi .eq x y).setWidth 32) : Ideal .f32) = if x = y then 1 else 0 := by
  show ((((IntOp.cmpi .eq x y).setWidth 32).toInt : ℝ) : EReal) = _
  by_cases h : x = y
  · have hb : IntOp.cmpi .eq x y = 1#1 := (cmpi_eq_one_iff x y).mpr h
    have e : ((1#1 : BitVec 1).setWidth 32).toInt = 1 := by decide
    rw [hb, if_pos h, e]
    norm_num
  · have hb : IntOp.cmpi .eq x y = 0#1 := eq_zero_of_ne_one (fun hc => h ((cmpi_eq_one_iff x y).mp hc))
    have e : ((0#1 : BitVec 1).setWidth 32).toInt = 0 := by decide
    rw [hb, if_neg h, e]
    norm_num

/-- A sum of two vectors of words at an index adds the two words. -/
theorem addi_apply {s : Shape} {w : ℕ} (x y : IVec s w) (i : s.Idx) : addi x y i = x i + y i := rfl
/-- A difference of two vectors of words at an index subtracts the two words. -/
theorem subi_apply {s : Shape} {w : ℕ} (x y : IVec s w) (i : s.Idx) : subi x y i = x i - y i := rfl

/-- The word `l - pos + 256` of a place `l` and a position `pos`, both below `256`, is the natural number `l + 256 - pos`:
    neither the subtraction's wrap-around nor the addition's is left in the result. -/
theorem relWord_toNat (ps : BitVec 32) (hps : ps.toNat < 256) (l : ℕ) (hl : l < 256) :
    (BitVec.ofNat 32 l - ps + 256#32).toNat = l + 256 - ps.toNat := by
  simp only [BitVec.toNat_add, BitVec.toNat_sub, BitVec.toNat_ofNat]
  omega

/-! The product of a `256 × 256` matrix with a `256 × 768` one into the zero matrix: the operands' indices by coordinates, and the entry as a sum over `Fin 256`. -/

theorem lhs256_0 (i : S256x768.Idx) (q : dot_S256x256_S256x768_S256x768_1_0_0_1_n_n.contr.Idx) :
    (dot_S256x256_S256x768_S256x768_1_0_0_1_n_n.lhsIdx i q 0).val = (i 0).val := by
  unfold DotDims.lhsIdx
  rw [dif_neg (show ¬(0 : Fin S256x256.rank) ∈ dot_S256x256_S256x768_S256x768_1_0_0_1_n_n.lhsBatch by decide), dif_pos (show (0 : Fin S256x256.rank) ∈ dot_S256x256_S256x768_S256x768_1_0_0_1_n_n.lhsNonContracting by decide)]
  rfl
theorem lhs256_1 (i : S256x768.Idx) (q : dot_S256x256_S256x768_S256x768_1_0_0_1_n_n.contr.Idx) :
    (dot_S256x256_S256x768_S256x768_1_0_0_1_n_n.lhsIdx i q 1).val = (q ⟨0, by decide⟩).val :=
  dot_S256x256_S256x768_S256x768_1_0_0_1_n_n.lhsIdx_val_of_single rfl i q
theorem rhs256_0 (i : S256x768.Idx) (q : dot_S256x256_S256x768_S256x768_1_0_0_1_n_n.contr.Idx) :
    (dot_S256x256_S256x768_S256x768_1_0_0_1_n_n.rhsIdx i q 0).val = (q ⟨0, by decide⟩).val :=
  dot_S256x256_S256x768_S256x768_1_0_0_1_n_n.rhsIdx_val_of_single rfl i q
theorem rhs256_1 (i : S256x768.Idx) (q : dot_S256x256_S256x768_S256x768_1_0_0_1_n_n.contr.Idx) :
    (dot_S256x256_S256x768_S256x768_1_0_0_1_n_n.rhsIdx i q 1).val = (i 1).val := by
  unfold DotDims.rhsIdx
  rw [dif_neg (show ¬(1 : Fin S256x768.rank) ∈ dot_S256x256_S256x768_S256x768_1_0_0_1_n_n.rhsBatch by decide), dif_pos (show (1 : Fin S256x768.rank) ∈ dot_S256x256_S256x768_S256x768_1_0_0_1_n_n.rhsNonContracting by decide)]
  rfl

/-- Entry `(l, d)` of the product is the sum over `k` of `A (l, k) * B (k, d)`. -/
theorem matmul256_apply (A : FVec Ideal S256x256 .bf16) (B : FVec Ideal S256x768 .bf16) (l : Fin 256) (d : Fin 768) :
    matmul dot_S256x256_S256x768_S256x768_1_0_0_1_n_n none A B (constant (F := Ideal) S256x768 .f32 0x00000000#32) (ix2 l d)
      = ∑ k : Fin 256, A (ix2 l k) * B (ix2 k d) := by
  simp only [matmul]
  rw [Ideal.matmul_constant_zero_apply, ← Equiv.sum_comp (contrEquiv1 dot_S256x256_S256x768_S256x768_1_0_0_1_n_n 256 rfl rfl).symm]
  refine Finset.sum_congr rfl fun k _ => ?_
  have hk := contrEquiv1_symm_val dot_S256x256_S256x768_S256x768_1_0_0_1_n_n 256 rfl rfl k
  have el : dot_S256x256_S256x768_S256x768_1_0_0_1_n_n.lhsIdx (ix2 l d) ((contrEquiv1 dot_S256x256_S256x768_S256x768_1_0_0_1_n_n 256 rfl rfl).symm k) = ix2 l k := funext fun a => Fin.ext (by
    match a with
    | ⟨0, _⟩ => exact lhs256_0 _ _
    | ⟨1, _⟩ => exact (lhs256_1 _ _).trans hk)
  have er : dot_S256x256_S256x768_S256x768_1_0_0_1_n_n.rhsIdx (ix2 l d) ((contrEquiv1 dot_S256x256_S256x768_S256x768_1_0_0_1_n_n 256 rfl rfl).symm k) = ix2 k d := funext fun a => Fin.ext (by
    match a with
    | ⟨0, _⟩ => exact (rhs256_0 _ _).trans hk
    | ⟨1, _⟩ => exact rhs256_1 _ _)
  rw [el, er]

/-! The product of a `256 × 513` matrix with a `513 × 768` one into the zero matrix: the operands' indices by coordinates, and the entry as a sum over `Fin 513`. -/

theorem lhs513_0 (i : S256x768.Idx) (q : dot_S256x513_S513x768_S256x768_1_0_0_1_n_n.contr.Idx) :
    (dot_S256x513_S513x768_S256x768_1_0_0_1_n_n.lhsIdx i q 0).val = (i 0).val := by
  unfold DotDims.lhsIdx
  rw [dif_neg (show ¬(0 : Fin S256x513.rank) ∈ dot_S256x513_S513x768_S256x768_1_0_0_1_n_n.lhsBatch by decide), dif_pos (show (0 : Fin S256x513.rank) ∈ dot_S256x513_S513x768_S256x768_1_0_0_1_n_n.lhsNonContracting by decide)]
  rfl
theorem lhs513_1 (i : S256x768.Idx) (q : dot_S256x513_S513x768_S256x768_1_0_0_1_n_n.contr.Idx) :
    (dot_S256x513_S513x768_S256x768_1_0_0_1_n_n.lhsIdx i q 1).val = (q ⟨0, by decide⟩).val :=
  dot_S256x513_S513x768_S256x768_1_0_0_1_n_n.lhsIdx_val_of_single rfl i q
theorem rhs513_0 (i : S256x768.Idx) (q : dot_S256x513_S513x768_S256x768_1_0_0_1_n_n.contr.Idx) :
    (dot_S256x513_S513x768_S256x768_1_0_0_1_n_n.rhsIdx i q 0).val = (q ⟨0, by decide⟩).val :=
  dot_S256x513_S513x768_S256x768_1_0_0_1_n_n.rhsIdx_val_of_single rfl i q
theorem rhs513_1 (i : S256x768.Idx) (q : dot_S256x513_S513x768_S256x768_1_0_0_1_n_n.contr.Idx) :
    (dot_S256x513_S513x768_S256x768_1_0_0_1_n_n.rhsIdx i q 1).val = (i 1).val := by
  unfold DotDims.rhsIdx
  rw [dif_neg (show ¬(1 : Fin S513x768.rank) ∈ dot_S256x513_S513x768_S256x768_1_0_0_1_n_n.rhsBatch by decide), dif_pos (show (1 : Fin S513x768.rank) ∈ dot_S256x513_S513x768_S256x768_1_0_0_1_n_n.rhsNonContracting by decide)]
  rfl

/-- Entry `(l, d)` of the product is the sum over `k` of `A (l, k) * B (k, d)`. -/
theorem matmul513_apply (A : FVec Ideal S256x513 .bf16) (B : FVec Ideal S513x768 .bf16) (l : Fin 256) (d : Fin 768) :
    matmul dot_S256x513_S513x768_S256x768_1_0_0_1_n_n none A B (constant (F := Ideal) S256x768 .f32 0x00000000#32) (ix2 l d)
      = ∑ k : Fin 513, A (ix2 l k) * B (ix2 k d) := by
  simp only [matmul]
  rw [Ideal.matmul_constant_zero_apply, ← Equiv.sum_comp (contrEquiv1 dot_S256x513_S513x768_S256x768_1_0_0_1_n_n 513 rfl rfl).symm]
  refine Finset.sum_congr rfl fun k _ => ?_
  have hk := contrEquiv1_symm_val dot_S256x513_S513x768_S256x768_1_0_0_1_n_n 513 rfl rfl k
  have el : dot_S256x513_S513x768_S256x768_1_0_0_1_n_n.lhsIdx (ix2 l d) ((contrEquiv1 dot_S256x513_S513x768_S256x768_1_0_0_1_n_n 513 rfl rfl).symm k) = ix2 l k := funext fun a => Fin.ext (by
    match a with
    | ⟨0, _⟩ => exact lhs513_0 _ _
    | ⟨1, _⟩ => exact (lhs513_1 _ _).trans hk)
  have er : dot_S256x513_S513x768_S256x768_1_0_0_1_n_n.rhsIdx (ix2 l d) ((contrEquiv1 dot_S256x513_S513x768_S256x768_1_0_0_1_n_n 513 rfl rfl).symm k) = ix2 k d := funext fun a => Fin.ext (by
    match a with
    | ⟨0, _⟩ => exact (rhs513_0 _ _).trans hk
    | ⟨1, _⟩ => exact rhs513_1 _ _)
  rw [el, er]

/-! ## The three rows -/

/-- The token gather: row `l` of the one-hot product is the sequence row the head word at `l` names. -/
theorem pay2_apply (x0 : Vec Ideal S1x256x768 .f32) (x1 : IVec S1x256x1 32)
    (hh : ∀ l : Fin 256, (x1 (ix3 0 l 0)).toNat < 256) (l : Fin 256) (d : Fin 768) :
    k0_pay2 (F := Ideal) x0 x1 (ix2 l d) = x0 (ix3 0 (Cert.Spec.headRow (x1 (ix3 0 l 0))) d) := by
  unfold k0_pay2
  rw [matmul256_apply]
  have hl' := l.isLt
  have hw := hh l
  -- the weights of row `l` are one exactly at the column whose number is the head word at `l`, that is at `headRow`
  refine (Cert.OneHotSum.sum_onehot_mul_of_iff (Cert.Spec.headRow (x1 (ix3 0 l 0))) _ _
    (fun k : Fin 256 => x1 (ix3 0 l 0) = BitVec.ofNat 32 k.val) (fun k => ?_) (fun k => ?_)).trans ?_
  · have hk' := k.isLt
    constructor
    · intro h
      apply Fin.ext
      show k.val = min (x1 (ix3 0 l 0)).toNat 255
      have := congrArg BitVec.toNat h
      rw [BitVec.toNat_ofNat] at this
      omega
    · intro h
      have := congrArg Fin.val h
      change k.val = min (x1 (ix3 0 l 0)).toNat 255 at this
      apply BitVec.eq_of_toNat_eq
      rw [BitVec.toNat_ofNat]
      omega
  · rw [truncf_apply, sitofp_apply, extui_apply, cmpi_apply, onehot_word, broadcastTo_a1_ab_apply, broadcastTo_1b_ab_apply,
      iota_single_apply, shapeCast_1ab_ab_apply]
  · -- the table's entry: the sequence block with its leading unit axis dropped
    beta_reduce
    rw [truncf_apply, shapeCast_1ab_ab_apply]

/-- The relative-position lookup: row `l` of the one-hot product is row `l - pos + 256` of the table. -/
theorem pay3_apply (ps : BitVec 32) (x2 : Vec Ideal S513x768 .f32) (hps : ps.toNat < 256) (l : Fin 256) (d : Fin 768) :
    k0_pay3 (F := Ideal) ps x2 (ix2 l d) = x2 (ix2 (Cert.Spec.relRow ps l) d) := by
  unfold k0_pay3
  rw [matmul513_apply]
  have hl' := l.isLt
  have hw := relWord_toNat ps hps l.val hl'
  -- the weights of row `l` are one exactly at the column whose number is the word `l - pos + 256`, that is at `relRow ps l`
  refine Cert.OneHotSum.sum_onehot_mul_of_iff (Cert.Spec.relRow ps l) _ (fun k => x2 (ix2 k d))
    (fun k : Fin 513 => BitVec.ofNat 32 l.val - ps + 256#32 = BitVec.ofNat 32 k.val) (fun k => ?_) (fun k => ?_)
  · have hk' := k.isLt
    constructor
    · intro h
      apply Fin.ext
      show k.val = min (l.val + 256 - ps.toNat) 512
      have := congrArg BitVec.toNat h
      rw [hw, BitVec.toNat_ofNat] at this
      omega
    · intro h
      have := congrArg Fin.val h
      change k.val = min (l.val + 256 - ps.toNat) 512 at this
      apply BitVec.eq_of_toNat_eq
      rw [hw, BitVec.toNat_ofNat]
      omega
  · rw [truncf_apply, sitofp_apply, extui_apply, cmpi_apply, onehot_word, broadcastTo_a1_ab_apply, broadcastTo_1b_ab_apply,
      addi_apply, subi_apply, iota_single_apply, iota_single_apply]
    rfl

/-- The class one-hot matrix: entry `(l, k)` is one exactly when `k` is the class row of place `l`. -/
theorem pay4_apply (fr ps : BitVec 32) (hfr : fr.toNat < 201) (hps : ps.toNat < 256) (l : Fin 256) (k : Fin 201) :
    k0_pay4 (F := Ideal) fr ps (ix2 l k) = if k = Cert.Spec.clsRow fr ps l then 1 else 0 := by
  unfold k0_pay4
  rw [truncf_apply, sitofp_apply, extui_apply, cmpi_apply, onehot_word,
    broadcastTo_a1_ab_apply, broadcastTo_1b_ab_apply, select_apply, cmpi_apply, iota_single_apply, iota_single_apply]
  simp only [broadcast_apply]
  -- the entry is one exactly when the row's selected word (the frame word at the place `pos`, zero elsewhere) is the column's number
  show (if Scalar.select (IntOp.cmpi .eq (BitVec.ofNat 32 l.val) ps) fr 0#32 = BitVec.ofNat 32 k.val then (1 : EReal) else 0) = _
  refine if_congr ?_ rfl rfl
  have hl' := l.isLt
  have hk' := k.isLt
  unfold Cert.Spec.clsRow
  -- at the place `pos` the selected word is the frame word, elsewhere it is zero; both are below `2 ^ 32`, so words and numbers agree
  by_cases hl : l.val = ps.toNat
  · have hc : IntOp.cmpi .eq (BitVec.ofNat 32 l.val) ps = 1#1 := (cmpi_eq_one_iff _ _).mpr (by
      apply BitVec.eq_of_toNat_eq; rw [BitVec.toNat_ofNat]; omega)
    rw [hc, select_one, if_pos hl]
    constructor
    · intro h
      apply Fin.ext
      show k.val = min fr.toNat 200
      have := congrArg BitVec.toNat h
      rw [BitVec.toNat_ofNat] at this
      omega
    · intro h
      have := congrArg Fin.val h
      apply BitVec.eq_of_toNat_eq
      rw [BitVec.toNat_ofNat]
      change k.val = min fr.toNat 200 at this
      omega
  · have hc : IntOp.cmpi .eq (BitVec.ofNat 32 l.val) ps = 0#1 := eq_zero_of_ne_one (fun hc => hl (by
      have := congrArg BitVec.toNat ((cmpi_eq_one_iff _ _).mp hc)
      rw [BitVec.toNat_ofNat] at this
      omega))
    rw [hc, select_zero, if_neg hl]
    constructor
    · intro h
      apply Fin.ext
      show k.val = 0
      have := congrArg BitVec.toNat h
      rw [BitVec.toNat_ofNat] at this
      change 0 = k.val % 2 ^ 32 at this
      omega
    · intro h
      have := congrArg Fin.val h
      change k.val = 0 at this
      apply BitVec.eq_of_toNat_eq
      rw [BitVec.toNat_ofNat, this]
      rfl

end Cert.KernelIdeal.Rows

end
-- ==== Proof.KPayload.lean ====
/-
  The stored block of the kernel body, read at an index.

  The body lays the three looked-up rows side by side (a concatenation along the feature axis), multiplies the
  `[256, 2304]` feature matrix with the `[2304, 200]` transposed weight block and adds the bias row. Entry `(l, c)` is
  the sum over the 2304 features of feature times weight, plus the bias: the specification's feature row
  (`Cert.Spec.featRow`) at the block's own sequence, head words, frame word and position word.
-/
import proofs.«427339_j66657892433950_1_alg».proof.Proof.KRows

noncomputable section

namespace Cert.KernelIdeal.Payload

open Cert.KernelIdeal Cert.KernelIdeal.Gen Idealize.ShloMosaic Idealize.ShloMosaic.ValueIdx

/-! ## The two products' operand indices, coordinate by coordinate

  Both products contract the left operand's columns with the right operand's rows: at the output entry `(r, c)` and the
  contraction position `k` the left operand is read at `(r, k)` and the right one at `(k, c)`. -/

theorem lhsCls_0 (i : S256x768.Idx) (q : dot_S256x201_S201x768_S256x768_1_0_0_1_n_n.contr.Idx) :
    (dot_S256x201_S201x768_S256x768_1_0_0_1_n_n.lhsIdx i q 0).val = (i 0).val := by
  unfold DotDims.lhsIdx
  rw [dif_neg (show ¬(0 : Fin S256x201.rank) ∈ dot_S256x201_S201x768_S256x768_1_0_0_1_n_n.lhsBatch by decide), dif_pos (show (0 : Fin S256x201.rank) ∈ dot_S256x201_S201x768_S256x768_1_0_0_1_n_n.lhsNonContracting by decide)]
  rfl
theorem lhsCls_1 (i : S256x768.Idx) (q : dot_S256x201_S201x768_S256x768_1_0_0_1_n_n.contr.Idx) :
    (dot_S256x201_S201x768_S256x768_1_0_0_1_n_n.lhsIdx i q 1).val = (q ⟨0, by decide⟩).val :=
  dot_S256x201_S201x768_S256x768_1_0_0_1_n_n.lhsIdx_val_of_single rfl i q
theorem rhsCls_0 (i : S256x768.Idx) (q : dot_S256x201_S201x768_S256x768_1_0_0_1_n_n.contr.Idx) :
    (dot_S256x201_S201x768_S256x768_1_0_0_1_n_n.rhsIdx i q 0).val = (q ⟨0, by decide⟩).val :=
  dot_S256x201_S201x768_S256x768_1_0_0_1_n_n.rhsIdx_val_of_single rfl i q
theorem rhsCls_1 (i : S256x768.Idx) (q : dot_S256x201_S201x768_S256x768_1_0_0_1_n_n.contr.Idx) :
    (dot_S256x201_S201x768_S256x768_1_0_0_1_n_n.rhsIdx i q 1).val = (i 1).val := by
  unfold DotDims.rhsIdx
  rw [dif_neg (show ¬(1 : Fin S201x768.rank) ∈ dot_S256x201_S201x768_S256x768_1_0_0_1_n_n.rhsBatch by decide), dif_pos (show (1 : Fin S201x768.rank) ∈ dot_S256x201_S201x768_S256x768_1_0_0_1_n_n.rhsNonContracting by decide)]
  rfl

theorem lhsOut_0 (i : S256x200.Idx) (q : dot_S256x2304_S2304x200_S256x200_1_0_0_1_n_n.contr.Idx) :
    (dot_S256x2304_S2304x200_S256x200_1_0_0_1_n_n.lhsIdx i q 0).val = (i 0).val := by
  unfold DotDims.lhsIdx
  rw [dif_neg (show ¬(0 : Fin S256x2304.rank) ∈ dot_S256x2304_S2304x200_S256x200_1_0_0_1_n_n.lhsBatch by decide), dif_pos (show (0 : Fin S256x2304.rank) ∈ dot_S256x2304_S2304x200_S256x200_1_0_0_1_n_n.lhsNonContracting by decide)]
  rfl
theorem lhsOut_1 (i : S256x200.Idx) (q : dot_S256x2304_S2304x200_S256x200_1_0_0_1_n_n.contr.Idx) :
    (dot_S256x2304_S2304x200_S256x200_1_0_0_1_n_n.lhsIdx i q 1).val = (q ⟨0, by decide⟩).val :=
  dot_S256x2304_S2304x200_S256x200_1_0_0_1_n_n.lhsIdx_val_of_single rfl i q
theorem rhsOut_0 (i : S256x200.Idx) (q : dot_S256x2304_S2304x200_S256x200_1_0_0_1_n_n.contr.Idx) :
    (dot_S256x2304_S2304x200_S256x200_1_0_0_1_n_n.rhsIdx i q 0).val = (q ⟨0, by decide⟩).val :=
  dot_S256x2304_S2304x200_S256x200_1_0_0_1_n_n.rhsIdx_val_of_single rfl i q
theorem rhsOut_1 (i : S256x200.Idx) (q : dot_S256x2304_S2304x200_S256x200_1_0_0_1_n_n.contr.Idx) :
    (dot_S256x2304_S2304x200_S256x200_1_0_0_1_n_n.rhsIdx i q 1).val = (i 1).val := by
  unfold DotDims.rhsIdx
  rw [dif_neg (show ¬(1 : Fin S2304x200.rank) ∈ dot_S256x2304_S2304x200_S256x200_1_0_0_1_n_n.rhsBatch by decide), dif_pos (show (1 : Fin S2304x200.rank) ∈ dot_S256x2304_S2304x200_S256x200_1_0_0_1_n_n.rhsNonContracting by decide)]
  rfl

/-! ## The two products read at an index -/

/-- The class product at `(l, d)`: the sum over the 201 class rows. -/
theorem matmulCls_apply (X : FVec Ideal S256x201 .bf16) (Y : FVec Ideal S201x768 .bf16) (l : Fin 256) (d : Fin 768) :
    matmul dot_S256x201_S201x768_S256x768_1_0_0_1_n_n none X Y (constant (F := Ideal) S256x768 .f32 0x00000000#32) (ix2 l d)
      = ∑ k : Fin 201, X (ix2 l k) * Y (ix2 k d) := by
  simp only [matmul]
  rw [Ideal.matmul_constant_zero_apply, ← Equiv.sum_comp (contrEquiv1 dot_S256x201_S201x768_S256x768_1_0_0_1_n_n 201 rfl rfl).symm]
  refine Finset.sum_congr rfl fun k _ => ?_
  have hk := contrEquiv1_symm_val dot_S256x201_S201x768_S256x768_1_0_0_1_n_n 201 rfl rfl k
  have el : dot_S256x201_S201x768_S256x768_1_0_0_1_n_n.lhsIdx (ix2 l d) ((contrEquiv1 dot_S256x201_S201x768_S256x768_1_0_0_1_n_n 201 rfl rfl).symm k) = ix2 l k := funext fun a => Fin.ext (by
    match a with
    | ⟨0, _⟩ => exact lhsCls_0 _ _
    | ⟨1, _⟩ => exact (lhsCls_1 _ _).trans hk)
  have er : dot_S256x201_S201x768_S256x768_1_0_0_1_n_n.rhsIdx (ix2 l d) ((contrEquiv1 dot_S256x201_S201x768_S256x768_1_0_0_1_n_n 201 rfl rfl).symm k) = ix2 k d := funext fun a => Fin.ext (by
    match a with
    | ⟨0, _⟩ => exact (rhsCls_0 _ _).trans hk
    | ⟨1, _⟩ => exact rhsCls_1 _ _)
  rw [el, er]

/-- The output product at `(l, c)`: the sum over the 2304 features. -/
theorem matmulOut_apply (X : FVec Ideal S256x2304 .bf16) (Y : FVec Ideal S2304x200 .bf16) (l : Fin 256) (d : Fin 200) :
    matmul dot_S256x2304_S2304x200_S256x200_1_0_0_1_n_n none X Y (constant (F := Ideal) S256x200 .f32 0x00000000#32) (ix2 l d)
      = ∑ k : Fin 2304, X (ix2 l k) * Y (ix2 k d) := by
  simp only [matmul]
  rw [Ideal.matmul_constant_zero_apply, ← Equiv.sum_comp (contrEquiv1 dot_S256x2304_S2304x200_S256x200_1_0_0_1_n_n 2304 rfl rfl).symm]
  refine Finset.sum_congr rfl fun k _ => ?_
  have hk := contrEquiv1_symm_val dot_S256x2304_S2304x200_S256x200_1_0_0_1_n_n 2304 rfl rfl k
  have el : dot_S256x2304_S2304x200_S256x200_1_0_0_1_n_n.lhsIdx (ix2 l d) ((contrEquiv1 dot_S256x2304_S2304x200_S256x200_1_0_0_1_n_n 2304 rfl rfl).symm k) = ix2 l k := funext fun a => Fin.ext (by
    match a with
    | ⟨0, _⟩ => exact lhsOut_0 _ _
    | ⟨1, _⟩ => exact (lhsOut_1 _ _).trans hk)
  have er : dot_S256x2304_S2304x200_S256x200_1_0_0_1_n_n.rhsIdx (ix2 l d) ((contrEquiv1 dot_S256x2304_S2304x200_S256x200_1_0_0_1_n_n 2304 rfl rfl).symm k) = ix2 k d := funext fun a => Fin.ext (by
    match a with
    | ⟨0, _⟩ => exact (rhsOut_0 _ _).trans hk
    | ⟨1, _⟩ => exact rhsOut_1 _ _)
  rw [el, er]

/-! ## The three-piece concatenation read at an index -/

/-- Three `[256, 768]` pieces side by side, read at `(l, f)`: the first below 768, the second below 1536, the third
    from there on, each at its own column. -/
theorem concat3_apply {α : Type} (a b c : S256x768.Idx → α)
    (h : Shape.Concatenates [S256x768, S256x768, S256x768] S256x2304 1) (l : Fin 256) (f : Fin 2304) :
    concatenate S256x2304 1 [⟨S256x768, a⟩, ⟨S256x768, b⟩, ⟨S256x768, c⟩] h (ix2 l f)
      = if h1 : f.val < 768 then a (ix2 l (⟨f.val, h1⟩ : Fin 768))
        else if h2 : f.val < 1536 then b (ix2 l (⟨f.val - 768, by omega⟩ : Fin 768))
        else c (ix2 l (⟨f.val - 1536, by omega⟩ : Fin 768)) := by
  have hoff : ∀ (i : S256x768.Idx) (b' : Fin S256x768.rank), i 0 = l →
      b'.cast (rfl : S256x768.rank = S256x2304.rank) ≠ (1 : Fin S256x2304.rank) →
      (i b').val = ((ix2 l f : S256x2304.Idx) (b'.cast (rfl : S256x768.rank = S256x2304.rank))).val := by
    intro i b' hi hb
    match b' with
    | ⟨0, _⟩ => exact congrArg Fin.val hi
    | ⟨1, _⟩ => exact absurd rfl hb
  by_cases h1 : f.val < 768
  · rw [dif_pos h1]
    exact concatenate_apply_piece (t := S256x2304) 1 [⟨S256x768, a⟩, ⟨S256x768, b⟩, ⟨S256x768, c⟩] h (ix2 l f) 0
      (by show (0 : ℕ) < 3; omega) S256x768 a rfl rfl 0 rfl
      (ix2 l (⟨f.val, h1⟩ : Fin 768)) (fun b' hb => hoff _ b' rfl hb) (Nat.zero_add _)
  · rw [dif_neg h1]
    by_cases h2 : f.val < 1536
    · rw [dif_pos h2]
      exact concatenate_apply_piece (t := S256x2304) 1 [⟨S256x768, a⟩, ⟨S256x768, b⟩, ⟨S256x768, c⟩] h (ix2 l f) 1
        (by show (1 : ℕ) < 3; omega) S256x768 b rfl rfl 768 rfl
        (ix2 l (⟨f.val - 768, by omega⟩ : Fin 768)) (fun b' hb => hoff _ b' rfl hb)
        (show 768 + (f.val - 768) = f.val by omega)
    · rw [dif_neg h2]
      have hf := f.isLt
      exact concatenate_apply_piece (t := S256x2304) 1 [⟨S256x768, a⟩, ⟨S256x768, b⟩, ⟨S256x768, c⟩] h (ix2 l f) 2
        (by show (2 : ℕ) < 3; omega) S256x768 c rfl rfl 1536 rfl
        (ix2 l (⟨f.val - 1536, by omega⟩ : Fin 768)) (fun b' hb => hoff _ b' rfl hb)
        (show 1536 + (f.val - 1536) = f.val by omega)

/-! ## The stored block read at an index -/

/-- The stored block over any three pieces `v17`, `v31`, class weights `v43`, class table `v44`, weights `v49` and bias
    `v53`: at `(0, l, c)` the sum over the features `f` of the feature (the first piece below 768, the second below 1536,
    from there on the class product) times the weight, plus the bias. Changes of float format are the identity. -/
theorem pay1_read (v17 v31 : FVec Ideal S256x768 .f32) (v43 : FVec Ideal S256x201 .bf16) (v44 : Vec Ideal S201x768 .f32)
    (v49 : Vec Ideal S2304x200 .f32) (v53 : Vec Ideal S1x200 .f32) (l : Fin 256) (c : Fin 200) :
    k0_pay1 (F := Ideal) v17 v31 v43 v44 v49 v53 (ix3 0 l c)
      = (∑ f : Fin 2304,
          ((if h1 : f.val < 768 then v17 (ix2 l (⟨f.val, h1⟩ : Fin 768))
            else if h2 : f.val < 1536 then v31 (ix2 l (⟨f.val - 768, by omega⟩ : Fin 768))
            else ∑ k : Fin 201, v43 (ix2 l k) * v44 (ix2 k (⟨f.val - 1536, by omega⟩ : Fin 768))) : EReal)
            * v49 (ix2 f c))
        + v53 (ix2 0 c) := by
  unfold k0_pay1
  rw [shapeCast_ab_1ab_apply, addf_apply, matmulOut_apply, broadcastTo_1b_ab_apply, shapeCast_self, shapeCast_self]
  congr 1
  refine Finset.sum_congr rfl fun f _ => ?_
  rw [truncf_apply, truncf_apply, concat3_apply]
  congr 1
  by_cases h1 : f.val < 768
  · rw [dif_pos h1, dif_pos h1]
  · rw [dif_neg h1, dif_neg h1]
    by_cases h2 : f.val < 1536
    · rw [dif_pos h2, dif_pos h2]
    · rw [dif_neg h2, dif_neg h2, matmulCls_apply]
      exact Finset.sum_congr rfl fun k _ => by rw [truncf_apply]

/-- The stored block at `(0, l, c)`. `x0` the sequence block, `x1` the head-word block, `x2` / `x3` the two tables,
    `x4` the transposed weights, `x5` the bias row, `fr` / `ps` the batch entry's frame and position words. -/
theorem pay1_apply (x0 : Vec Ideal S1x256x768 .f32) (x1 : IVec S1x256x1 32) (x2 : Vec Ideal S513x768 .f32)
    (x3 : Vec Ideal S201x768 .f32) (x4 : Vec Ideal S2304x200 .f32) (x5 : Vec Ideal S1x200 .f32) (fr ps : BitVec 32)
    (hh : ∀ l : Fin 256, (x1 (ix3 0 l 0)).toNat < 256) (hfr : fr.toNat < 201) (hps : ps.toNat < 256)
    (l : Fin 256) (c : Fin 200) :
    k0_pay1 (F := Ideal) (k0_pay2 x0 x1) (k0_pay3 ps x2) (k0_pay4 fr ps) x3 x4 x5 (ix3 0 l c)
      = (∑ f : Fin 2304, Cert.Spec.featRow (fun k d => x0 (ix3 0 k d)) x2 x3 (fun l' => x1 (ix3 0 l' 0)) fr ps l f
            * x4 (ix2 f c)) + x5 (ix2 0 c) := by
  rw [pay1_read]
  congr 1
  refine Finset.sum_congr rfl fun f _ => ?_
  congr 1
  unfold Cert.Spec.featRow
  by_cases h1 : f.val < 768
  · rw [dif_pos h1, dif_pos h1, Rows.pay2_apply x0 x1 hh]
  · rw [dif_neg h1, dif_neg h1]
    by_cases h2 : f.val < 1536
    · rw [dif_pos h2, dif_pos h2, Rows.pay3_apply ps x2 hps]
    · rw [dif_neg h2, dif_neg h2]
      exact Cert.OneHotSum.sum_onehot_mul (Cert.Spec.clsRow fr ps l) _ _
        (fun k => Rows.pay4_apply fr ps hfr hps l k)

end Cert.KernelIdeal.Payload

end
-- ==== Proof.KValue.lean ====
/-
  The kernel's result array.

  The grid has one point per batch entry. Point `t` stages block `t` of the sequence and of the head words, the two
  tables, the transposed weights and the bias row whole, and writes block `t` of the result back. So the block the body
  leaves at point `t` (`Piece.out_block_eq`, `Payload.pay1_apply`) is the specification's rows `(t, ·, ·)`, the 64
  blocks tile the result array, and the array ends holding `Cert.Spec.G` of the argument arrays.
-/
import proofs.«427339_j66657892433950_1_alg».proof.Proof.KPiece
import proofs.«427339_j66657892433950_1_alg».proof.Proof.KPayload
import proofs.«427339_j66657892433950_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The batch entry of grid point `t`. -/
def bat (t : Fin grid0.N) : Fin 64 := ⟨t.val, N_0 ▸ t.isLt⟩

/-- The printed index maps over the grid: point `t` is at coordinate `t`, the per-batch windows (sequence, head words,
    result) are at block `(t, 0, 0)`, the other four at their one block. -/
theorem idx_facts : ∀ t : Fin grid0.N, (grid0.coords t 0).val = t.val
    ∧ cc0_transform_0 (grid0.coords t) 0 = t.val ∧ cc0_transform_0 (grid0.coords t) 1 = 0 ∧ cc0_transform_0 (grid0.coords t) 2 = 0
    ∧ cc0_transform_1 (grid0.coords t) 0 = t.val ∧ cc0_transform_1 (grid0.coords t) 1 = 0 ∧ cc0_transform_1 (grid0.coords t) 2 = 0
    ∧ cc0_transform_2 (grid0.coords t) 0 = 0 ∧ cc0_transform_2 (grid0.coords t) 1 = 0
    ∧ cc0_transform_3 (grid0.coords t) 0 = 0 ∧ cc0_transform_3 (grid0.coords t) 1 = 0
    ∧ cc0_transform_4 (grid0.coords t) 0 = 0 ∧ cc0_transform_4 (grid0.coords t) 1 = 0
    ∧ cc0_transform_5 (grid0.coords t) 0 = 0 ∧ cc0_transform_5 (grid0.coords t) 1 = 0
    ∧ cc0_transform_6 (grid0.coords t) 0 = t.val ∧ cc0_transform_6 (grid0.coords t) 1 = 0 ∧ cc0_transform_6 (grid0.coords t) 2 = 0 := by
  decide +kernel

/-! ## The input blocks at a point, read at an index -/

/-- The sequence block of point `t`: the batch entry's sequence. -/
theorem blk0_apply (hO : Ok m) (c : Dev nD) (t : Fin (cfgM m hO).N) (k : Fin 256) (d : Fin 768) :
    (iblk m hO c 0 t : Vec Ideal S1x256x768 .f32) (ix3 0 k d) = m ((c : Thread nD τ).loc main_arg0) (ix3 (bat t) k d) := by
  show V m c main_arg0 ((((cfgM m hO).win 0).blk t).view.emb (ix3 0 k d)) = _
  rw [V_main_arg0]
  refine congrArg (m ((c : Thread nD τ).loc main_arg0)) ?_
  obtain ⟨-, e0, e1, e2, -⟩ := idx_facts t
  funext a; apply Fin.ext
  match a with
  | ⟨0, _⟩ => show cc0_transform_0 (grid0.coords t) 0 * 1 + 1 * 0 = t.val; omega
  | ⟨1, _⟩ => show cc0_transform_0 (grid0.coords t) 1 * 256 + 1 * k.val = k.val; omega
  | ⟨2, _⟩ => show cc0_transform_0 (grid0.coords t) 2 * 768 + 1 * d.val = d.val; omega

/-! The three arrays @main prepares before the region, as terms of the arguments. -/

theorem V_heads (c : Dev nD) : (V m c main_v0 : S64x256x1.Idx → BitVec 32)
    = shapeCast S64x256x1 (m ((c : Thread nD τ).loc main_arg5)) shapeCasts_S64x256_S64x256x1 := by
  dsimp only [V, hostOps0]; after_results; rfl

theorem V_wt (c : Dev nD) : (V m c main_v1 : S2304x200.Idx → EReal)
    = transpose S2304x200 [1, 0] (m ((c : Thread nD τ).loc main_arg3)) transposes_S200x2304_S2304x200_1_0 := by
  dsimp only [V, hostOps0]; after_results

theorem V_bias (c : Dev nD) : (V m c main_v2 : S1x200.Idx → EReal)
    = shapeCast S1x200 (m ((c : Thread nD τ).loc main_arg4)) shapeCasts_S200_S1x200 := by
  dsimp only [V, hostOps0]; after_results; rfl

/-- A `[64, 256]` array cast to a `[64, 256, 1]` column array reads, at `(b, l, 0)`, the operand at `(b, l)`. -/
theorem cast_col_apply {α : Type} (X : S64x256.Idx → α) (h : S64x256.ShapeCasts S64x256x1) (b : Fin 64) (l : Fin 256) :
    shapeCast S64x256x1 X h (ix3 b l 0) = X (ix2 b l) :=
  shapeCast_apply X h _ _ (by
    rw [Shape.rowMajor_val_two, Shape.rowMajor_val_three]
    show b.val * 256 + l.val = (b.val * 256 + l.val) * 1 + 0
    omega)

/-- The head-word block of point `t`: the batch entry's head words as a column. -/
theorem blk1_apply (hO : Ok m) (c : Dev nD) (t : Fin (cfgM m hO).N) (l : Fin 256) :
    (iblk m hO c 1 t : IVec S1x256x1 32) (ix3 0 l 0) = m ((c : Thread nD τ).loc main_arg5) (ix2 (bat t) l) := by
  show (V m c main_v0 : S64x256x1.Idx → BitVec 32) ((((cfgM m hO).win 1).blk t).view.emb (ix3 0 l 0)) = _
  have hemb : (((cfgM m hO).win 1).blk t).view.emb (ix3 0 l 0) = (ix3 (bat t) l 0 : S64x256x1.Idx) := by
    obtain ⟨-, -, -, -, e0, e1, e2, -⟩ := idx_facts t
    funext a; apply Fin.ext
    match a with
    | ⟨0, _⟩ => show cc0_transform_1 (grid0.coords t) 0 * 1 + 1 * 0 = t.val; omega
    | ⟨1, _⟩ => show cc0_transform_1 (grid0.coords t) 1 * 256 + 1 * l.val = l.val; omega
    | ⟨2, _⟩ => show cc0_transform_1 (grid0.coords t) 2 * 1 + 1 * 0 = 0; omega
  rw [hemb, V_heads]
  exact cast_col_apply _ _ _ _

/-- The two tables are staged whole. -/
theorem blk2_apply (hO : Ok m) (c : Dev nD) (t : Fin (cfgM m hO).N) (y : S513x768.Idx) :
    (iblk m hO c 2 t : Vec Ideal S513x768 .f32) y = m ((c : Thread nD τ).loc main_arg1) y := by
  show V m c main_arg1 ((((cfgM m hO).win 2).blk t).view.emb y) = _
  rw [V_main_arg1]
  refine congrArg (m ((c : Thread nD τ).loc main_arg1)) ?_
  obtain ⟨-, -, -, -, -, -, -, e0, e1, -⟩ := idx_facts t
  funext a; apply Fin.ext
  match a with
  | ⟨0, _⟩ => show cc0_transform_2 (grid0.coords t) 0 * 513 + 1 * (y 0).val = (y 0).val; omega
  | ⟨1, _⟩ => show cc0_transform_2 (grid0.coords t) 1 * 768 + 1 * (y 1).val = (y 1).val; omega

theorem blk3_apply (hO : Ok m) (c : Dev nD) (t : Fin (cfgM m hO).N) (y : S201x768.Idx) :
    (iblk m hO c 3 t : Vec Ideal S201x768 .f32) y = m ((c : Thread nD τ).loc main_arg2) y := by
  show V m c main_arg2 ((((cfgM m hO).win 3).blk t).view.emb y) = _
  rw [V_main_arg2]
  refine congrArg (m ((c : Thread nD τ).loc main_arg2)) ?_
  obtain ⟨-, -, -, -, -, -, -, -, -, e0, e1, -⟩ := idx_facts t
  funext a; apply Fin.ext
  match a with
  | ⟨0, _⟩ => show cc0_transform_3 (grid0.coords t) 0 * 201 + 1 * (y 0).val = (y 0).val; omega
  | ⟨1, _⟩ => show cc0_transform_3 (grid0.coords t) 1 * 768 + 1 * (y 1).val = (y 1).val; omega

/-- The weight block: the weights transposed. -/
theorem blk4_apply (hO : Ok m) (c : Dev nD) (t : Fin (cfgM m hO).N) (f : Fin 2304) (k : Fin 200) :
    (iblk m hO c 4 t : Vec Ideal S2304x200 .f32) (ix2 f k) = m ((c : Thread nD τ).loc main_arg3) (ix2 k f) := by
  show (V m c main_v1 : S2304x200.Idx → EReal) ((((cfgM m hO).win 4).blk t).view.emb (ix2 f k)) = _
  have hemb : (((cfgM m hO).win 4).blk t).view.emb (ix2 f k) = (ix2 f k : S2304x200.Idx) := by
    obtain ⟨-, -, -, -, -, -, -, -, -, -, -, e0, e1, -⟩ := idx_facts t
    funext a; apply Fin.ext
    match a with
    | ⟨0, _⟩ => show cc0_transform_4 (grid0.coords t) 0 * 2304 + 1 * f.val = f.val; omega
    | ⟨1, _⟩ => show cc0_transform_4 (grid0.coords t) 1 * 200 + 1 * k.val = k.val; omega
  rw [hemb, V_wt]
  exact transpose_ix2_apply _ _ _ _

/-- The bias block: the bias as a row. -/
theorem blk5_apply (hO : Ok m) (c : Dev nD) (t : Fin (cfgM m hO).N) (k : Fin 200) :
    (iblk m hO c 5 t : Vec Ideal S1x200 .f32) (ix2 0 k) = m ((c : Thread nD τ).loc main_arg4) (ix1 k) := by
  show (V m c main_v2 : S1x200.Idx → EReal) ((((cfgM m hO).win 5).blk t).view.emb (ix2 0 k)) = _
  have hemb : (((cfgM m hO).win 5).blk t).view.emb (ix2 0 k) = (ix2 0 k : S1x200.Idx) := by
    obtain ⟨-, -, -, -, -, -, -, -, -, -, -, -, -, e0, e1, -⟩ := idx_facts t
    funext a; apply Fin.ext
    match a with
    | ⟨0, _⟩ => show cc0_transform_5 (grid0.coords t) 0 * 1 + 1 * 0 = 0; omega
    | ⟨1, _⟩ => show cc0_transform_5 (grid0.coords t) 1 * 200 + 1 * k.val = k.val; omega
  rw [hemb, V_bias]
  exact shapeCast_a_1a_apply _ _ _ _

/-! ## The blocks and the two table words of a point, under names of their literal types -/

abbrev B0 (hO : Ok m) (c : Dev nD) (t : Fin (cfgM m hO).N) : Vec Ideal S1x256x768 .f32 := iblk m hO c 0 t
abbrev B1 (hO : Ok m) (c : Dev nD) (t : Fin (cfgM m hO).N) : IVec S1x256x1 32 := iblk m hO c 1 t
abbrev B2 (hO : Ok m) (c : Dev nD) (t : Fin (cfgM m hO).N) : Vec Ideal S513x768 .f32 := iblk m hO c 2 t
abbrev B3 (hO : Ok m) (c : Dev nD) (t : Fin (cfgM m hO).N) : Vec Ideal S201x768 .f32 := iblk m hO c 3 t
abbrev B4 (hO : Ok m) (c : Dev nD) (t : Fin (cfgM m hO).N) : Vec Ideal S2304x200 .f32 := iblk m hO c 4 t
abbrev B5 (hO : Ok m) (c : Dev nD) (t : Fin (cfgM m hO).N) : Vec Ideal S1x200 .f32 := iblk m hO c 5 t
/-- The frame word the body reads at point `t`. -/
abbrev Wf (t : Fin grid0.N) : BitVec 32 := Piece.wordAt (View.read (Elt Ideal) (View.whole main_arg6) (tbl m 0)) (grid0.coords t)
/-- The position word the body reads at point `t`. -/
abbrev Wp (t : Fin grid0.N) : BitVec 32 := Piece.wordAt (View.read (Elt Ideal) (View.whole main_arg7) (tbl m 1)) (grid0.coords t)

/-- The frame word at point `t` is the batch entry's. -/
theorem word_frame (c : Dev nD) (t : Fin grid0.N) : Wf m t = m ((c : Thread nD τ).loc main_arg6) (ix1 (bat t)) := by
  obtain rfl : c = 0 := Subsingleton.elim _ _
  refine (Piece.wordAt_eq _ _).trans ?_
  show V m (0 : Dev nD) main_arg6 (ix1 (⟨(grid0.coords t 0).val, (grid0.coords t 0).isLt⟩ : Fin 64)) = _
  rw [V_main_arg6]
  refine congrArg (m (((0 : Dev nD) : Thread nD τ).loc main_arg6)) ?_
  funext a
  match a with
  | ⟨0, _⟩ => exact Fin.ext (idx_facts t).1

/-- The position word at point `t` is the batch entry's. -/
theorem word_pos (c : Dev nD) (t : Fin grid0.N) : Wp m t = m ((c : Thread nD τ).loc main_arg7) (ix1 (bat t)) := by
  obtain rfl : c = 0 := Subsingleton.elim _ _
  refine (Piece.wordAt_eq _ _).trans ?_
  show V m (0 : Dev nD) main_arg7 (ix1 (⟨(grid0.coords t 0).val, (grid0.coords t 0).isLt⟩ : Fin 64)) = _
  rw [V_main_arg7]
  refine congrArg (m (((0 : Dev nD) : Thread nD τ).loc main_arg7)) ?_
  funext a
  match a with
  | ⟨0, _⟩ => exact Fin.ext (idx_facts t).1

/-- What the body leaves in the result's staging buffer at point `t`: its arithmetic of the point's blocks and words. -/
theorem after_eq (hO : Ok m) (c : Dev nD) (t : Fin (cfgM m hO).N) :
    (dats m hO 0 c).after 6 t
      = k0_pay1 (F := Ideal) (k0_pay2 (B0 m hO c t) (B1 m hO c t)) (k0_pay3 (Wp m t) (B2 m hO c t)) (k0_pay4 (Wf m t) (Wp m t))
          (B3 m hO c t) (B4 m hO c t) (B5 m hO c t) :=
  (after0_6 m hO c t).trans
    (Piece.out_block_eq c (grid0.coords t) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (ms0_6 m hO t) (hs0_6 m hO t)
      (iblk m hO c 0 t) (iblk m hO c 1 t) (iblk m hO c 2 t) (iblk m hO c 3 t) (iblk m hO c 4 t) (iblk m hO c 5 t) (tbl m 0) (tbl m 1))

/-! ## The result array -/

/-- The domain, of the launch memory's integer arguments on core `c`. -/
abbrev RangesAt (c : Dev nD) : Prop :=
  Cert.Spec.Ranges (m ((c : Thread nD τ).loc main_arg5)) (m ((c : Thread nD τ).loc main_arg6)) (m ((c : Thread nD τ).loc main_arg7))

/-- The specification of the launch memory's arguments on core `c`. -/
def Gm (c : Dev nD) : S64x256x200.Idx → EReal :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Where point `t`'s result block lies in the array: rows `(t, ·, ·)`. -/
theorem emb6 (hO : Ok m) (t : Fin (cfgM m hO).N) (l : Fin 256) (k : Fin 200) :
    (((cfgM m hO).win 6).blk t).view.emb (ix3 0 l k) = (ix3 (bat t) l k : S64x256x200.Idx) := by
  obtain ⟨-, -, -, -, -, -, -, -, -, -, -, -, -, -, -, e0, e1, e2⟩ := idx_facts t
  funext a; apply Fin.ext
  match a with
  | ⟨0, _⟩ => show cc0_transform_6 (grid0.coords t) 0 * 1 + 1 * 0 = t.val; omega
  | ⟨1, _⟩ => show cc0_transform_6 (grid0.coords t) 1 * 256 + 1 * l.val = l.val; omega
  | ⟨2, _⟩ => show cc0_transform_6 (grid0.coords t) 2 * 200 + 1 * k.val = k.val; omega

/-- WHAT POINT `t` WRITES BACK is block `t` of the specification. -/
theorem flushed_eq (hO : Ok m) (c : Dev nD) (hR : RangesAt m c) (t : Fin (cfgM m hO).N) :
    (dats m hO 0 c).flushed 6 t = (((cfgM m hO).win 6).blk t).view.read (Elt Ideal) (Gm m c) := by
  show ((cfgM m hO).win 6).cut (grid0.coords t) ((dats m hO 0 c).after 6 t) = _
  refine funext fun (y : S1x256x200.Idx) => ?_
  show (dats m hO 0 c).after 6 t y = Gm m c ((((cfgM m hO).win 6).blk t).view.emb y)
  obtain ⟨z, l, k, rfl⟩ : ∃ (z : Fin 1) (l : Fin 256) (k : Fin 200), y = ix3 z l k := ⟨y 0, y 1, y 2, eq_ix3 y⟩
  obtain rfl : z = 0 := Subsingleton.elim _ _
  have hf := word_frame m c t
  have hp := word_pos m c t
  refine (congrFun (after_eq m hO c t) (ix3 0 l k)).trans ?_
  refine (Payload.pay1_apply (B0 m hO c t) (B1 m hO c t) (B2 m hO c t) (B3 m hO c t) (B4 m hO c t) (B5 m hO c t) (Wf m t) (Wp m t)
    (fun l' => (congrArg (fun w : BitVec 32 => w.toNat < 256) (blk1_apply m hO c t l')).mpr (hR.head (bat t) l'))
    ((congrArg (fun w : BitVec 32 => w.toNat < 201) hf).mpr (hR.frame (bat t)))
    ((congrArg (fun w : BitVec 32 => w.toNat < 256) hp).mpr (hR.pos (bat t))) l k).trans ?_
  refine Eq.trans ?_ (congrArg (Gm m c) (emb6 m hO t l k)).symm
  have h0 : (fun (k' : Fin 256) (d : Fin 768) => B0 m hO c t (ix3 0 k' d))
      = fun k' d => m ((c : Thread nD τ).loc main_arg0) (ix3 (bat t) k' d) :=
    funext fun k' => funext fun d => blk0_apply m hO c t k' d
  have h1 : (fun l' : Fin 256 => B1 m hO c t (ix3 0 l' 0)) = fun l' => m ((c : Thread nD τ).loc main_arg5) (ix2 (bat t) l') :=
    funext fun l' => blk1_apply m hO c t l'
  have h2 : B2 m hO c t = m ((c : Thread nD τ).loc main_arg1) := funext fun y => blk2_apply m hO c t y
  have h3 : B3 m hO c t = m ((c : Thread nD τ).loc main_arg2) := funext fun y => blk3_apply m hO c t y
  have h5 : B5 m hO c t (ix2 0 k) = m ((c : Thread nD τ).loc main_arg4) (ix1 k) := blk5_apply m hO c t k
  rw [h0, h1, h2, h3, h5, hf, hp]
  show _ = Cert.Spec.Gat _ _ _ _ _ _ _ _ (bat t) l k
  unfold Cert.Spec.Gat
  refine congrArg (· + m ((c : Thread nD τ).loc main_arg4) (ix1 k)) (Finset.sum_congr rfl fun f _ => ?_)
  rw [show B4 m hO c t (ix2 f k) = m ((c : Thread nD τ).loc main_arg3) (ix2 k f) from blk4_apply m hO c t f k]

/-- An index of the result array is in point `t`'s block iff each coordinate is in the block's range on its axis. -/
theorem mem_blk6 (hO : Ok m) (t : Fin (cfgM m hO).N) (i : S64x256x200.Idx) :
    i ∈ (((cfgM m hO).win 6).blk t).view.set ↔ ∀ a : Fin 3, cc0_transform_6 (grid0.coords t) a * S1x256x200.size a ≤ (i a).val
      ∧ (i a).val < cc0_transform_6 (grid0.coords t) a * S1x256x200.size a + S1x256x200.size a := by
  have key : ∀ r : Rect main_v3.ty.shape, i ∈ ((View.whole main_v3).slice r).set ↔ i ∈ r.set := fun r => by
    rw [View.set_slice_whole]
  show i ∈ ((View.whole main_v3).slice (((cfgM m hO).win 6).rect t)).set ↔ _
  refine (key (((cfgM m hO).win 6).rect t)).trans (Rect.mem_set_unit.trans ?_)
  exact Iff.rfl

/-- The 64 blocks tile the result array: index `(b, l, k)` is in point `b`'s block. -/
theorem cover (hO : Ok m) (i : S64x256x200.Idx) :
    ∃ t : Fin (cfgM m hO).N, ((cfgM m hO).win 6).flush t = true ∧ i ∈ (((cfgM m hO).win 6).blk t).view.set := by
  have hi0 : (i 0).val < 64 := (i 0).isLt
  have hi1 : (i 1).val < 256 := (i 1).isLt
  have hi2 : (i 2).val < 200 := (i 2).isLt
  let t : Fin grid0.N := ⟨(i 0).val, N_0.symm ▸ hi0⟩
  refine ⟨t, flush0_6 (adm m hO) t, ?_⟩
  rw [mem_blk6]
  obtain ⟨-, -, -, -, -, -, -, -, -, -, -, -, -, -, -, e0, e1, e2⟩ := idx_facts t
  have ht : t.val = (i 0).val := rfl
  intro a
  match a with
  | ⟨0, _⟩ => show cc0_transform_6 (grid0.coords t) 0 * 1 ≤ (i 0).val ∧ (i 0).val < cc0_transform_6 (grid0.coords t) 0 * 1 + 1; omega
  | ⟨1, _⟩ => show cc0_transform_6 (grid0.coords t) 1 * 256 ≤ (i 1).val ∧ (i 1).val < cc0_transform_6 (grid0.coords t) 1 * 256 + 256; omega
  | ⟨2, _⟩ => show cc0_transform_6 (grid0.coords t) 2 * 200 ≤ (i 2).val ∧ (i 2).val < cc0_transform_6 (grid0.coords t) 2 * 200 + 200; omega

/-- THE RESULT ARRAY after the run, on the domain: the specification. -/
theorem final (hO : Ok m) (c : Dev nD) (hR : RangesAt m c) : (dats m hO 0 c).arrAt 6 (cfgM m hO).N = Gm m c :=
  (dats m hO 0 c).arrAt_eq_of_cover 6 (Gm m c) (fun t _ => flushed_eq m hO c hR t) (cover m hO)

/-- THE KERNEL'S RUN, on the domain: every weakly fair execution terminates with the result array at the specification
    of the argument arrays and the arguments unchanged. -/
theorem run (hO : Ok m) (hR : ∀ c : Dev nD, RangesAt m c) :
    θ_run defs (onTc (τ := τ) (main (F := Ideal))) ⟨m, fun _ => 0, ρ⟩ (fun r => ∀ c : Dev nD,
      r.2.mem ((c.tc : Thread nD τ).loc main_v3) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 6).trans (final m hO c (hR c)),
      ((h c).1 0).trans (((dats m hO 0 c).arrAt_in 0 rfl _).trans ((A_eq m hO c 0).trans (V_main_arg0 m c))),
      ((h c).1 2).trans (((dats m hO 0 c).arrAt_in 2 rfl _).trans ((A_eq m hO c 2).trans (V_main_arg1 m c))),
      ((h c).1 3).trans (((dats m hO 0 c).arrAt_in 3 rfl _).trans ((A_eq m hO c 3).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩)
    (run_main m ρ hO)

end Cert.KernelIdeal.KValue

end
-- ==== Proof.RefGather.lean ====
/-
  The reference's token gather, read at an index.

  `take_along_axis` turns a negative index into `index + 256`, gathers the sequence row at the result (the gather
  clamps the start index into the table), and where the shifted index is outside `[0, 255]` puts a not-a-number fill in
  the row's place. For a head word inside `[0, 256)` nothing is shifted, the range test holds, the clamp does not
  bind, and the row is the sequence row the word names.
-/
import proofs.«427339_j66657892433950_1_alg».proof.Proof.RefRead
import proofs.«427339_j66657892433950_1_alg».proof.Proof.Spec
import Idealize.ShloMosaic.Lib.ValueIdx
import Idealize.ShloMosaic.Lib.Pipeline.Value
import Idealize.ShloMosaic.Lib.ReduceAll

noncomputable section

namespace Cert.ReferenceIdeal.RefRows

open Cert.ReferenceIdeal Cert.ReferenceIdeal.Gen Cert.ReferenceIdeal.ReadP Idealize.ShloMosaic Idealize.ShloMosaic.ValueIdx

/-- A left fold of `and` from 1 over one-bit words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a]
    exact foldl_andi_one f hf l

/-- A word below 256 reads the same signed and unsigned. -/
private theorem toInt_of_lt (w : BitVec 32) (hw : w.toNat < 256) : w.toInt = w.toNat :=
  BitVec.toInt_eq_toNat_of_lt (by omega)

section
variable (x5 : (⟨S64x256, .i32⟩ : BufTy).Contents (Elt Ideal))
  (hh : ∀ (b : Fin 64) (l : Fin 256), (x5 (ix2 b l)).toNat < 256)
include hh

/-- Every head word is below 256, at whatever index it is read. -/
private theorem word_lt (i : S64x256x1.Idx) : (x5 (idx_main_v0 i)).toNat < 256 := by
  rw [eq_ix2 (idx_main_v0 i)]; exact hh _ _

/-- A head word in range is not negative, so the shifted index is the word itself. -/
private theorem v4_apply (i : S64x256x1.Idx) : val_main_call0_v4 (F := Ideal) x5 i = x5 (idx_main_v0 i) := by
  have hw := word_lt x5 hh i
  rw [val_main_call0_v4_apply, val_main_call0_v1_apply, val_main_v0_apply, val_main_call0_v0_apply, val_main_call0_c_apply]
  have h0 : IntOp.cmpi .slt (x5 (idx_main_v0 i)) 0#32 = 0#1 := eq_zero_of_ne_one fun h => by
    rw [IntOp.cmpi_slt, toInt_of_lt _ hw, show (0#32 : BitVec 32).toInt = 0 from by decide] at h
    omega
  rw [h0]
  exact select_zero _ _

/-- The range test `0 ≤ index ≤ 255` holds at every index. -/
private theorem v10_one (i : S64x256x1.Idx) : val_main_call0_v10 (F := Ideal) x5 i = 1#1 := by
  have hw := word_lt x5 hh i
  rw [val_main_call0_v10_apply, val_main_call0_v6_apply, val_main_call0_v9_apply, v4_apply x5 hh, val_main_call0_v5_apply,
    val_main_call0_c_2_apply, val_main_call0_v8_apply, val_main_call0_v7_apply, val_main_call0_c_1_apply]
  rw [IntOp.andi_eq_one, IntOp.cmpi_sge, IntOp.cmpi_sle, toInt_of_lt _ hw, show (0#32 : BitVec 32).toInt = 0 from by decide,
    show (255#32 : BitVec 32).toInt = 255 from by decide]
  constructor <;> omega

/-- So the mask, the conjunction of the range test along the unit axis, is 1 everywhere. -/
private theorem v11_one (j : S64x256.Idx) : val_main_call0_v11 (F := Ideal) x5 j = 1#1 := by
  unfold val_main_call0_v11
  rw [Host.reduce_eq_foldl]
  exact foldl_andi_one _ (fun i => v10_one x5 hh i) _

end

local notation "G" => gather_S64x256x768_S64x256x1_S64x256x768_2_1_0_0_1_2_11768

/-- The start-index position result index `(b, l, d)` reads is `(b, l, 0)`, whose head word is `head[b, l]`. -/
private theorem siIdx_head (b : Fin 64) (l : Fin 256) (d : Fin 768) (c : Fin (GatherDims.startIndexMap G).length) :
    idx_main_v0 (GatherDims.siIdx G (ix3 b l d) c) = ix2 b l := by
  funext a
  refine Fin.ext ?_
  match a with
  | ⟨0, _⟩ => rfl
  | ⟨1, _⟩ => rfl

/-- The gathered sequence row at `(b, l, d)`: the row the head word `head[b, l]` names. -/
theorem v1_apply (x0 : (⟨S64x256x768, .f32⟩ : BufTy).Contents (Elt Ideal)) (x5 : (⟨S64x256, .i32⟩ : BufTy).Contents (Elt Ideal))
    (hh : ∀ (b : Fin 64) (l : Fin 256), (x5 (ix2 b l)).toNat < 256) (b : Fin 64) (l : Fin 256) (d : Fin 768) :
    val_main_v1 (F := Ideal) x0 x5 (ix3 b l d) = x0 (ix3 b (Cert.Spec.headRow (x5 (ix2 b l))) d) := by
  -- the mask is 1 at (b, l), so the select takes the gathered row
  rw [val_main_v1_apply, val_main_call0_v13_apply, v11_one x5 hh, select_one]
  -- the gathered element is the sequence at the operand index: compare it with (b, row, d) axis by axis
  unfold val_main_call0_v12 Host.gather
  congr 1
  funext a
  refine Fin.ext ?_
  match a with
  | ⟨0, _⟩ =>
    -- the batching axis: no start, no offset, the batch coordinate b
    show GatherDims.start G (ix3 b l d) (val_main_call0_v4 (F := Ideal) x5) (0 : Fin 3) + GatherDims.batchCoord G (ix3 b l d) (0 : Fin 3)
      + GatherDims.offCoord G (ix3 b l d) (0 : Fin 3) = b.val
    rw [GatherDims.start_batching G _ _ _ (List.mem_singleton.mpr rfl),
      GatherDims.offCoord_eq_zero G _ _ (fun h => ((GatherDims.mem_sKept G _).1 h).2 (List.mem_singleton.mpr rfl)),
      Nat.zero_add, Nat.add_zero]
    unfold GatherDims.batchCoord
    rw [dif_pos (show (0 : Fin 3) ∈ GatherDims.operandBatchingDims G from List.mem_singleton.mpr rfl)]
    rfl
  | ⟨1, _⟩ =>
    -- the collapsed axis: the head word read signed and cut off at 255; in range it is the word's row
    show GatherDims.start G (ix3 b l d) (val_main_call0_v4 (F := Ideal) x5) (1 : Fin 3) + GatherDims.batchCoord G (ix3 b l d) (1 : Fin 3)
      + GatherDims.offCoord G (ix3 b l d) (1 : Fin 3) = min (x5 (ix2 b l)).toNat 255
    rw [GatherDims.batchCoord_eq_zero G _ _ (by decide),
      GatherDims.offCoord_eq_zero G _ _ (fun h => ((GatherDims.mem_sKept G _).1 h).1 (List.mem_singleton.mpr rfl)),
      Nat.add_zero]
    unfold GatherDims.start
    rw [dif_pos (show (1 : Fin 3) ∈ GatherDims.startIndexMap G from List.mem_singleton.mpr rfl), v4_apply x5 hh, siIdx_head, toInt_of_lt _ (hh b l), Int.toNat_natCast]
    rfl
  | ⟨2, _⟩ =>
    -- the offset axis: the column d
    show GatherDims.start G (ix3 b l d) (val_main_call0_v4 (F := Ideal) x5) (2 : Fin 3) + GatherDims.batchCoord G (ix3 b l d) (2 : Fin 3)
      + GatherDims.offCoord G (ix3 b l d) (2 : Fin 3) = d.val
    rw [GatherDims.batchCoord_eq_zero G _ _ (by decide), Nat.add_zero]
    unfold GatherDims.start GatherDims.offCoord
    rw [dif_neg (show ¬ (2 : Fin 3) ∈ GatherDims.startIndexMap G from by decide),
      dif_pos (show (2 : Fin 3) ∈ GatherDims.sKept G from by decide), Nat.zero_add]
    rfl

end Cert.ReferenceIdeal.RefRows

end
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.RefLookup.lean ====
/-
  The reference's two table lookups, read at an index.

  `pos_embedding[rel]` with `rel = l - pos + 256`: a negative `rel` would be shifted by the table's 513 rows and the gather
  clamps the start index into the table; for a position word inside `[0, 256)` and a place `l < 256` the word `rel` is
  between 1 and 511, nothing is shifted or clamped, and the row is row `l + 256 - pos` of the table.
  `class_embedding[frame]` likewise is the frame's row for a frame word inside `[0, 201)`; the `where` keeps it at the
  one place `l = pos` and puts the table's row 0 at every other place.
-/
import proofs.«427339_j66657892433950_1_alg».proof.Proof.RefRead
import proofs.«427339_j66657892433950_1_alg».proof.Proof.Spec
import proofs.«427339_j66657892433950_1_alg».proof.Proof.LibRowGatherScatter
import Idealize.ShloMosaic.Lib.ValueIdx
import Idealize.ShloMosaic.Lib.Pipeline.Value

noncomputable section

namespace Cert.ReferenceIdeal.RefRows

open Cert.ReferenceIdeal Cert.ReferenceIdeal.Gen Cert.ReferenceIdeal.ReadP Idealize.ShloMosaic Idealize.ShloMosaic.ValueIdx

/-! ## Rows gathered at a matrix of start indices -/

section RowGather3
variable {α : Type}

/-- The dimension numbers of a gather of whole rows at a MATRIX of start indices: operand `[N, D]`, start indices
    `[B, L, 1]`, result `[B, L, D]`; the result's last axis is the one offset axis, the operand's row axis is collapsed and
    is the axis the one-component start index names, the slices are `1 × D`. -/
abbrev rowGatherDims3 (N D B L : ℕ)
    (wf : GatherDims.WF ⟨2, ![N, D]⟩ ⟨3, ![B, L, 1]⟩ ⟨3, ![B, L, D]⟩ [2] [0] [] [0] [] 2 ![1, D]) :
    GatherDims ⟨2, ![N, D]⟩ ⟨3, ![B, L, 1]⟩ ⟨3, ![B, L, D]⟩ where
  offsetDims := [2]
  collapsedSliceDims := [0]
  operandBatchingDims := []
  startIndicesBatchingDims := []
  startIndexMap := [0]
  indexVectorDim := 2
  sliceSizes := ![1, D]
  wf := wf

/-- That gather read at `(b, l, c)`: on the row axis the clamped start word `idx (b, l, 0)` and nothing else, on the column
    axis no start and the result's last coordinate as offset. -/
theorem gather_rowDims3_apply {N D B L w : ℕ} (hN : 0 < N)
    (wf : GatherDims.WF ⟨2, ![N, D]⟩ ⟨3, ![B, L, 1]⟩ ⟨3, ![B, L, D]⟩ [2] [0] [] [0] [] 2 ![1, D])
    (x : (⟨2, ![N, D]⟩ : Shape).Idx → α) (idx : IVec ⟨3, ![B, L, 1]⟩ w) (b : Fin B) (l : Fin L) (c : Fin D) :
    Host.gather (rowGatherDims3 N D B L wf) x idx (ix3 b l c)
      = x (ix2 ⟨min (idx (ix3 b l 0)).toInt.toNat (N - 1), by omega⟩ c) := by
  unfold Host.gather
  congr 1
  funext a
  refine Fin.ext ?_
  match a with
  | ⟨0, _⟩ =>
    show (rowGatherDims3 N D B L wf).start (ix3 b l c) idx 0 + (rowGatherDims3 N D B L wf).batchCoord (ix3 b l c) 0
      + (rowGatherDims3 N D B L wf).offCoord (ix3 b l c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims3 N D B L wf).startIndexMap from List.mem_singleton.mpr rfl)]
    have hsi : (rowGatherDims3 N D B L wf).siIdx (ix3 b l c)
        ⟨List.idxOf (0 : Fin 2) (rowGatherDims3 N D B L wf).startIndexMap,
          List.idxOf_lt_length_iff.2 (List.mem_singleton.mpr rfl)⟩ = ix3 b l 0 := by
      funext e
      refine Fin.ext ?_
      match e with
      | ⟨0, _⟩ => rfl
      | ⟨1, _⟩ => rfl
      | ⟨2, _⟩ => rfl
    rw [hsi]
    rfl
  | ⟨1, _⟩ =>
    show (rowGatherDims3 N D B L wf).start (ix3 b l c) idx 1 + (rowGatherDims3 N D B L wf).batchCoord (ix3 b l c) 1
      + (rowGatherDims3 N D B L wf).offCoord (ix3 b l c) 1 = c.val
    have hstart : (rowGatherDims3 N D B L wf).start (ix3 b l c) idx 1 = 0 := by
      unfold GatherDims.start
      rw [dif_neg]
      intro hmem
      exact absurd (List.mem_singleton.mp hmem) (show ¬ (1 : Fin 2) = 0 by decide)
    have hoff : (rowGatherDims3 N D B L wf).offCoord (ix3 b l c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- The same for any record with those dimension numbers. -/
theorem gather_rows3_apply {N D B L w : ℕ} (hN : 0 < N)
    (g : GatherDims ⟨2, ![N, D]⟩ ⟨3, ![B, L, 1]⟩ ⟨3, ![B, L, D]⟩)
    (h1 : g.offsetDims = [2]) (h2 : g.collapsedSliceDims = [0]) (h3 : g.operandBatchingDims = [])
    (h4 : g.startIndicesBatchingDims = []) (h5 : g.startIndexMap = [0]) (h6 : g.indexVectorDim = 2)
    (h7 : g.sliceSizes = ![1, D])
    (x : (⟨2, ![N, D]⟩ : Shape).Idx → α) (idx : IVec ⟨3, ![B, L, 1]⟩ w) (b : Fin B) (l : Fin L) (c : Fin D) :
    Host.gather g x idx (ix3 b l c)
      = x (ix2 ⟨min (idx (ix3 b l 0)).toInt.toNat (N - 1), by omega⟩ c) := by
  obtain ⟨od, cd, ob, sb, sm, iv, ss, wf⟩ := g
  simp only at h1 h2 h3 h4 h5 h6 h7
  subst h1 h2 h3 h4 h5 h6 h7
  exact gather_rowDims3_apply hN wf x idx b l c

end RowGather3

/-! ## Words -/

/-- The word `l - pos + 256` of a place `l` and a position `pos`, both below `256`, is the natural number `l + 256 - pos`:
    neither the subtraction's wrap-around nor the addition's is left in the result. -/
theorem relWord_toNat (ps : BitVec 32) (hps : ps.toNat < 256) (l : ℕ) (hl : l < 256) :
    (BitVec.ofNat 32 l - ps + 256#32).toNat = l + 256 - ps.toNat := by
  simp only [BitVec.toNat_add, BitVec.toNat_sub, BitVec.toNat_ofNat]
  omega

/-- A word below `2 ^ 31` is not negative read signed: the signed comparison with zero is false … -/
theorem slt_zero_of_small (x : BitVec 32) (hx : x.toNat < 2 ^ 31) : IntOp.cmpi .slt x 0#32 = 0#1 := by
  show BitVec.ofBool (x.slt 0#32) = 0#1
  have h : x.slt 0#32 = false := by
    rw [BitVec.slt_eq_decide, BitVec.toInt_eq_toNat_cond]
    simp only [BitVec.toInt_zero]
    rw [if_pos (by omega)]
    simp
  rw [h]
  rfl

/-- … and its signed reading is its unsigned one. -/
theorem toInt_toNat_of_small (x : BitVec 32) (hx : x.toNat < 2 ^ 31) : x.toInt.toNat = x.toNat := by
  rw [BitVec.toInt_eq_toNat_cond, if_pos (by omega)]
  simp

/-- The equality comparison's bit is one exactly when the words are equal. -/
theorem cmpi_eq_one_iff (x y : BitVec 32) : IntOp.cmpi .eq x y = 1#1 ↔ x = y := by
  have hb : ∀ b : Bool, BitVec.ofBool b = 1#1 ↔ b = true := by decide
  show BitVec.ofBool (x == y) = 1#1 ↔ x = y
  rw [hb, beq_iff_eq]

/-! ## The two lookups -/

/-- The relative-position row at `(b, l, d)`: row `l - pos[b] + 256` of the table. -/
theorem v16_apply (x1 : (⟨S513x768, .f32⟩ : BufTy).Contents (Elt Ideal)) (x7 : (⟨S64, .i32⟩ : BufTy).Contents (Elt Ideal))
    (hp : ∀ b : Fin 64, (x7 (ix1 b)).toNat < 256) (b : Fin 64) (l : Fin 256) (d : Fin 768) :
    val_main_v16 (F := Ideal) x1 x7 (ix3 b l d) = x1 (ix2 (Cert.Spec.relRow (x7 (ix1 b)) l) d) := by
  have hl' := l.isLt
  have hps := hp b
  have hw := relWord_toNat (x7 (ix1 b)) hps l.val hl'
  -- the start word at `(b, l)` before the shift of negative words: `l - pos[b] + 256`
  have h9 : val_main_v9 (F := Ideal) x7 (idx_main_v15 (ix3 b l 0)) = BitVec.ofNat 32 l.val - x7 (ix1 b) + 256#32 := by
    rw [val_main_v9_apply, val_main_v7_apply, val_main_v5_apply, val_main_v3_apply, val_main_v2_apply, val_main_v6_apply,
      val_main_v4_apply, val_main_v8_apply, val_main_c_apply]
    have e : idx_main_v4 (idx_main_v6 (idx_main_v15 (ix3 b l 0))) = ix1 b := funext fun a => match a with | ⟨0, _⟩ => rfl
    rw [e]
    rfl
  -- it is between 1 and 511, so it is not negative and nothing is shifted
  have h15 : val_main_v15 (F := Ideal) x7 (ix3 b l 0) = BitVec.ofNat 32 l.val - x7 (ix1 b) + 256#32 := by
    rw [val_main_v15_apply, val_main_v14_apply, val_main_v11_apply, val_main_v10_apply, val_main_c_0_apply, h9,
      slt_zero_of_small _ (by rw [hw]; omega), select_zero]
  unfold val_main_v16
  rw [gather_rows3_apply (by decide) gather_S513x768_S64x256x1_S64x256x768_2_0_n_n_0_2_1768 rfl rfl rfl rfl rfl rfl rfl]
  -- and the clamp into the table's rows does nothing either
  refine congrArg (fun r => x1 (ix2 r d)) (Fin.ext ?_)
  show min (BitVec.toInt (val_main_v15 (F := Ideal) x7 (ix3 b l 0))).toNat (513 - 1) = min (l.val + 256 - (x7 (ix1 b)).toNat) 512
  rw [h15, toInt_toNat_of_small _ (by rw [hw]; omega), hw]

/-- The class row at `(b, l, d)`: the frame's row at the place `l = pos[b]`, row 0 elsewhere. -/
theorem v34_apply (x2 : (⟨S201x768, .f32⟩ : BufTy).Contents (Elt Ideal)) (x6 x7 : (⟨S64, .i32⟩ : BufTy).Contents (Elt Ideal))
    (hf : ∀ b : Fin 64, (x6 (ix1 b)).toNat < 201) (hp : ∀ b : Fin 64, (x7 (ix1 b)).toNat < 256)
    (b : Fin 64) (l : Fin 256) (d : Fin 768) :
    val_main_v34 (F := Ideal) x2 x6 x7 (ix3 b l d) = x2 (ix2 (Cert.Spec.clsRow (x6 (ix1 b)) (x7 (ix1 b)) l) d) := by
  have hl' := l.isLt
  have hps := hp b
  have hfr := hf b
  -- the condition at `(b, l)`: the place's number compared with the position word
  have hc : val_main_call1_v0 (F := Ideal) x7 (ix3 b l d) = IntOp.cmpi .eq (BitVec.ofNat 32 l.val) (x7 (ix1 b)) := by
    rw [val_main_call1_v0_apply, val_main_v29_apply, val_main_v28_apply, val_main_v26_apply, val_main_v24_apply,
      val_main_v2_apply, val_main_v27_apply, val_main_v25_apply]
    have e : idx_main_v25 (idx_main_v27 (idx_main_v29 (idx_main_call1_v0 (ix3 b l d)))) = ix1 b :=
      funext fun a => match a with | ⟨0, _⟩ => rfl
    rw [e]
  -- the frame's start word is not negative, so it is not shifted
  have h22 : val_main_v22 (F := Ideal) x6 (ix2 b 0) = x6 (ix1 b) := by
    rw [val_main_v22_apply, val_main_v21_apply, val_main_v18_apply, val_main_v17_apply, val_main_c_2_apply]
    have e : idx_main_v22 (ix2 b (0 : Fin 1)) = ix1 b := funext fun a => match a with | ⟨0, _⟩ => rfl
    rw [e, slt_zero_of_small _ (by omega), select_zero]
  -- the frame's row
  have h1 : val_main_call1_v1 (F := Ideal) x2 x6 (ix3 b l d) = x2 (ix2 ⟨(x6 (ix1 b)).toNat, hfr⟩ d) := by
    rw [val_main_call1_v1_apply, val_main_v30_apply]
    have e : idx_main_v30 (idx_main_call1_v1 (ix3 b l d)) = ix2 b d :=
      funext fun a => match a with | ⟨0, _⟩ => rfl | ⟨1, _⟩ => rfl
    rw [e]
    unfold val_main_v23
    rw [Cert.Lib.RowGS.gather_rows_apply (by decide) gather_S201x768_S64x1_S64x768_1_0_n_n_0_1_1768 rfl rfl rfl rfl rfl rfl rfl]
    refine congrArg (fun r => x2 (ix2 r d)) (Fin.ext ?_)
    show min (BitVec.toInt (val_main_v22 (F := Ideal) x6 (ix2 b 0))).toNat (201 - 1) = (x6 (ix1 b)).toNat
    rw [h22, toInt_toNat_of_small _ (by omega)]
    omega
  -- row 0
  have h2 : val_main_call1_v2 (F := Ideal) x2 (ix3 b l d) = x2 (ix2 (0 : Fin 201) d) := by
    rw [val_main_call1_v2_apply, val_main_v33_apply, val_main_v32_apply, val_main_v31_apply]
    refine congrArg x2 (funext fun a => Fin.ext ?_)
    match a with
    | ⟨0, _⟩ => rfl
    | ⟨1, _⟩ => exact Nat.mod_eq_of_lt d.isLt
  rw [val_main_v34_apply, hc, h1, h2]
  unfold Cert.Spec.clsRow
  by_cases hl : l.val = (x7 (ix1 b)).toNat
  · have hone : IntOp.cmpi .eq (BitVec.ofNat 32 l.val) (x7 (ix1 b)) = 1#1 := (cmpi_eq_one_iff _ _).mpr (by
      apply BitVec.eq_of_toNat_eq; rw [BitVec.toNat_ofNat]; omega)
    rw [hone, select_one, if_pos hl]
    refine congrArg (fun r => x2 (ix2 r d)) (Fin.ext ?_)
    show (x6 (ix1 b)).toNat = min (x6 (ix1 b)).toNat 200
    omega
  · have hzero : IntOp.cmpi .eq (BitVec.ofNat 32 l.val) (x7 (ix1 b)) = 0#1 := eq_zero_of_ne_one (fun hc' => hl (by
      have := congrArg BitVec.toNat ((cmpi_eq_one_iff _ _).mp hc')
      rw [BitVec.toNat_ofNat] at this
      omega))
    rw [hzero, select_zero, if_neg hl]
    rfl

end Cert.ReferenceIdeal.RefRows

end
-- ==== Proof.RefValue.lean ====
/-
  The reference computes the specification.

  Its last stages lay the gathered sequence row, the relative-position row and the class row side by side along the
  feature axis (a concatenation of three pieces of 768), contract the 2304 features with the weight matrix
  (`∑ f, feat[b, l, f] * W[c, f]`) and add the bias. With the three rows read at an index (`RefRows`) that is
  `Cert.Spec.G` entry by entry.
-/
import proofs.«427339_j66657892433950_1_alg».proof.Proof.RefGather
import proofs.«427339_j66657892433950_1_alg».proof.Proof.RefLookup

noncomputable section

namespace Cert.ReferenceIdeal.RefValue

open Cert.ReferenceIdeal Cert.ReferenceIdeal.Gen Cert.ReferenceIdeal.ReadP Idealize.ShloMosaic Idealize.ShloMosaic.ValueIdx

/-! ## The three-piece concatenation read at an index -/

/-- Three `[64, 256, 768]` pieces side by side along the feature axis, read at `(n, l, f)`: the first below 768, the
    second below 1536, the third from there on, each at its own column. -/
theorem concat3_apply {α : Type} (a b c : S64x256x768.Idx → α)
    (h : Shape.Concatenates [S64x256x768, S64x256x768, S64x256x768] S64x256x2304 2)
    (n : Fin 64) (l : Fin 256) (f : Fin 2304) :
    concatenate S64x256x2304 2 [⟨S64x256x768, a⟩, ⟨S64x256x768, b⟩, ⟨S64x256x768, c⟩] h (ix3 n l f)
      = if h1 : f.val < 768 then a (ix3 n l (⟨f.val, h1⟩ : Fin 768))
        else if h2 : f.val < 1536 then b (ix3 n l (⟨f.val - 768, by omega⟩ : Fin 768))
        else c (ix3 n l (⟨f.val - 1536, by omega⟩ : Fin 768)) := by
  have hoff : ∀ (i : S64x256x768.Idx) (b' : Fin S64x256x768.rank), i 0 = n → i 1 = l →
      b'.cast (rfl : S64x256x768.rank = S64x256x2304.rank) ≠ (2 : Fin S64x256x2304.rank) →
      (i b').val = ((ix3 n l f : S64x256x2304.Idx) (b'.cast (rfl : S64x256x768.rank = S64x256x2304.rank))).val := by
    intro i b' hn hl hb
    match b' with
    | ⟨0, _⟩ => exact congrArg Fin.val hn
    | ⟨1, _⟩ => exact congrArg Fin.val hl
    | ⟨2, _⟩ => exact absurd rfl hb
  by_cases h1 : f.val < 768
  · rw [dif_pos h1]
    exact concatenate_apply_piece (t := S64x256x2304) 2 [⟨S64x256x768, a⟩, ⟨S64x256x768, b⟩, ⟨S64x256x768, c⟩] h
      (ix3 n l f) 0 (by show (0 : ℕ) < 3; omega) S64x256x768 a rfl rfl 0 rfl
      (ix3 n l (⟨f.val, h1⟩ : Fin 768)) (fun b' hb => hoff _ b' rfl rfl hb) (Nat.zero_add _)
  · rw [dif_neg h1]
    by_cases h2 : f.val < 1536
    · rw [dif_pos h2]
      exact concatenate_apply_piece (t := S64x256x2304) 2 [⟨S64x256x768, a⟩, ⟨S64x256x768, b⟩, ⟨S64x256x768, c⟩] h
        (ix3 n l f) 1 (by show (1 : ℕ) < 3; omega) S64x256x768 b rfl rfl 768 rfl
        (ix3 n l (⟨f.val - 768, by omega⟩ : Fin 768)) (fun b' hb => hoff _ b' rfl rfl hb)
        (show 768 + (f.val - 768) = f.val by omega)
    · rw [dif_neg h2]
      have hf := f.isLt
      exact concatenate_apply_piece (t := S64x256x2304) 2 [⟨S64x256x768, a⟩, ⟨S64x256x768, b⟩, ⟨S64x256x768, c⟩] h
        (ix3 n l f) 2 (by show (2 : ℕ) < 3; omega) S64x256x768 c rfl rfl 1536 rfl
        (ix3 n l (⟨f.val - 1536, by omega⟩ : Fin 768)) (fun b' hb => hoff _ b' rfl rfl hb)
        (show 1536 + (f.val - 1536) = f.val by omega)

/-! ## The feature array and the result array -/

/-- The reference's feature array at `(b, l, f)` is the specification's feature row of batch entry `b` at place `l`. -/
theorem v35_apply (x0 : (⟨S64x256x768, .f32⟩ : BufTy).Contents (Elt Ideal)) (x1 : (⟨S513x768, .f32⟩ : BufTy).Contents (Elt Ideal)) (x2 : (⟨S201x768, .f32⟩ : BufTy).Contents (Elt Ideal))
    (x5 : (⟨S64x256, .i32⟩ : BufTy).Contents (Elt Ideal)) (x6 x7 : (⟨S64, .i32⟩ : BufTy).Contents (Elt Ideal))
    (hR : Cert.Spec.Ranges x5 x6 x7) (b : Fin 64) (l : Fin 256) (f : Fin 2304) :
    val_main_v35 (F := Ideal) x0 x1 x2 x5 x6 x7 (ix3 b l f)
      = Cert.Spec.featRow (fun k d => x0 (ix3 b k d)) x1 x2 (fun l' => x5 (ix2 b l')) (x6 (ix1 b)) (x7 (ix1 b)) l f := by
  unfold val_main_v35 Cert.Spec.featRow
  rw [concat3_apply]
  by_cases h1 : f.val < 768
  · rw [dif_pos h1, dif_pos h1, RefRows.v1_apply x0 x5 hR.head]
  · rw [dif_neg h1, dif_neg h1]
    by_cases h2 : f.val < 1536
    · rw [dif_pos h2, dif_pos h2, RefRows.v16_apply x1 x7 hR.pos]
    · rw [dif_neg h2, dif_neg h2, RefRows.v34_apply x2 x6 x7 hR.frame hR.pos]

/-- On the domain the reference's result array is the specification's. -/
theorem ref_eq_G (x0 : (⟨S64x256x768, .f32⟩ : BufTy).Contents (Elt Ideal)) (x1 : (⟨S513x768, .f32⟩ : BufTy).Contents (Elt Ideal)) (x2 : (⟨S201x768, .f32⟩ : BufTy).Contents (Elt Ideal))
    (x3 : (⟨S200x2304, .f32⟩ : BufTy).Contents (Elt Ideal)) (x4 : (⟨S200, .f32⟩ : BufTy).Contents (Elt Ideal)) (x5 : (⟨S64x256, .i32⟩ : BufTy).Contents (Elt Ideal)) (x6 x7 : (⟨S64, .i32⟩ : BufTy).Contents (Elt Ideal))
    (hR : Cert.Spec.Ranges x5 x6 x7) :
    val_main_v39 (F := Ideal) x0 x1 x2 x3 x4 x5 x6 x7 = Cert.Spec.G x0 x1 x2 x3 x4 x5 x6 x7 := by
  funext i
  obtain ⟨b, l, c, rfl⟩ : ∃ (b : Fin 64) (l : Fin 256) (c : Fin 200), i = ix3 b l c := ⟨i 0, i 1, i 2, eq_ix3 i⟩
  rw [Cert.Spec.G_apply]
  unfold Cert.Spec.Gat
  rw [val_main_v39_apply, val_main_v36_apply, val_main_v38_apply, val_main_v37_apply, Ideal.addf_def]
  have hb : idx_main_v37 (idx_main_v38 (ix3 b l c)) = ix1 c := funext fun a => by
    match a with
    | ⟨0, _⟩ => rfl
  rw [hb]
  refine congrArg (· + x4 (ix1 c)) (Finset.sum_congr rfl fun f _ => ?_)
  have el : lidx_main_v36 (ix3 b l c) f = ix3 b l f := funext fun a => by
    match a with
    | ⟨0, _⟩ => rfl
    | ⟨1, _⟩ => rfl
    | ⟨2, _⟩ => rfl
  have er : ridx_main_v36 (ix3 b l c) f = ix2 c f := funext fun a => by
    match a with
    | ⟨0, _⟩ => rfl
    | ⟨1, _⟩ => rfl
  rw [el, er, v35_apply x0 x1 x2 x5 x6 x7 hR]

end Cert.ReferenceIdeal.RefValue

end
-- ==== Proof.PreRanges.lean ====
/-
  The precondition gives the index ranges.

  The precondition is one bit: the conjunction of "every float entry is finite" for the five float inputs and of
  `0 ≤ x ∧ x < n` (signed) for every head word (`n = 256`), every frame word (`n = 201`) and every position word
  (`n = 256`). Read off the bit: each of the three integer conjuncts holds at every index, and a 32-bit word that is
  non-negative and below `n` as a signed integer has `toNat < n`.
-/
import proofs.«427339_j66657892433950_1_alg».proof.Pre_finite_inputs
import proofs.«427339_j66657892433950_1_alg».proof.Proof.Spec
import Idealize.ShloMosaic.Lib.ValueIdx
import Idealize.ShloMosaic.Lib.ReduceAll
import Idealize.ShloMosaic.Lib.StableHlo.Predicate

noncomputable section

namespace Cert.PreRanges

open Idealize.ShloMosaic Idealize.ShloMosaic.ValueIdx

variable [Cert.Pre_finite_inputs.Facts]

/-- A 32-bit word that is non-negative and below `n` as a signed integer has `toNat < n`: a non-negative signed
    reading is the unsigned one. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hw := BitVec.toInt_eq_toNat_cond w
  split at hw <;> omega

/-- The precondition's bit set gives the domain of the specification. -/
theorem ranges_of_pre (a0 : FVec Ideal Cert.Pre_finite_inputs.S64x256x768 .f32) (a1 : FVec Ideal Cert.Pre_finite_inputs.S513x768 .f32)
    (a2 : FVec Ideal Cert.Pre_finite_inputs.S201x768 .f32) (a3 : FVec Ideal Cert.Pre_finite_inputs.S200x2304 .f32)
    (a4 : FVec Ideal Cert.Pre_finite_inputs.S200 .f32) (a5 : IVec Cert.Pre_finite_inputs.S64x256 32)
    (a6 a7 : IVec Cert.Pre_finite_inputs.S64 32)
    (h : Cert.Pre_finite_inputs.fn (F := Ideal) a0 a1 a2 a3 a4 a5 a6 a7 = fun _ => 1#1) :
    Cert.Spec.Ranges a5 a6 a7 := by
  -- the bit is ((floats ∧ head) ∧ frame) ∧ pos
  have e := congrFun h ix0
  unfold Cert.Pre_finite_inputs.fn Cert.Pre_finite_inputs.fn_part1 Cert.Pre_finite_inputs.fn_part2 at e
  dsimp only at e
  obtain ⟨e3, hP⟩ := IntOp.andi_eq_one.1 e
  obtain ⟨e2, hF⟩ := IntOp.andi_eq_one.1 e3
  obtain ⟨-, hH⟩ := IntOp.andi_eq_one.1 e2
  -- a scalar shape has one index, so each conjunction over an array is a conjunction over all of its indices
  haveI : Subsingleton Cert.Pre_finite_inputs.S_.Idx := ⟨fun a b => funext fun d => d.elim0⟩
  refine ⟨fun b l => ?_, fun b => ?_, fun b => ?_⟩
  · -- the head conjunct holds at every index (b, l)
    obtain ⟨h0, h1⟩ := IntOp.andi_eq_one.1 (Host.reduce_andi_all _ _ _ _ _ hH (ix2 b l))
    exact toNat_lt_of_signed _ 256 (by decide) h0 h1
  · -- the frame conjunct at index b
    obtain ⟨h0, h1⟩ := IntOp.andi_eq_one.1 (Host.reduce_andi_all _ _ _ _ _ hF (ix1 b))
    exact toNat_lt_of_signed _ 201 (by decide) h0 h1
  · -- the position conjunct at index b
    obtain ⟨h0, h1⟩ := IntOp.andi_eq_one.1 (Host.reduce_andi_all _ _ _ _ _ hP (ix1 b))
    exact toNat_lt_of_signed _ 256 (by decide) h0 h1

end Cert.PreRanges

end
-- ==== Proof.lean ====
/-
  The kernel gathers, per batch entry, the token rows a vector of head indexes names, looks up a relative-position
  row and a class row for every place, lays the three rows side by side and applies a linear classifier. It does every
  lookup as a product with a one-hot matrix (a column of integer words compared with `0, 1, 2, …`); the reference does
  them as gathers. On the extended reals a sum weighted by a one-hot row is the one term it picks (`0 * x = 0` and
  `1 * x = x` for every `x`), so where every index names a row of its table the two programs compute one function,
  `Cert.Spec.G`:

      out[b, l, c] = (∑ f < 2304, feat[b, l, f] * W[c, f]) + bias[c],
      feat[b, l, ·] = seq[b, head[b, l], ·] ++ pe[l - pos[b] + 256, ·] ++ (cls[frame[b], ·] if l = pos[b] else cls[0, ·]).

  Outside that domain they differ (the reference fills a not-a-number or clamps, the one-hot product gives a zero row),
  so the precondition states the domain: every head index in `[0, 256)`, every frame label in `[0, 201)`, every
  position in `[0, 256)`, besides the finiteness of the float inputs (which this proof does not need: no law used
  fails at an infinity).

  Kernel side: what one grid point leaves in its output block (`KPiece`), that block read at an index (`KRows`,
  `KPayload`), the 64 blocks tiling the result array (`KValue`). Reference side: its run (`RefRun`) read one stage at a
  time (`RefRead`), the three gathers read at an index (`RefGather`, `RefLookup`), the concatenation and the
  contraction (`RefValue`). The precondition's bit read as the index ranges: `PreRanges`.
  The index maps of the kernel's windows do not read the prefetched tables, so the pipeline's side condition on the
  tables' contents is `True`.
-/
import proofs.«427339_j66657892433950_1_alg».proof.Defs
import proofs.«427339_j66657892433950_1_alg».proof.Proof.Gen.Kernel
import proofs.«427339_j66657892433950_1_alg».proof.Proof.Gen.Kernel.Skeleton
import proofs.«427339_j66657892433950_1_alg».proof.Proof.Gen.Kernel.Launch
import proofs.«427339_j66657892433950_1_alg».proof.Proof.Gen.Kernel.Points
import proofs.«427339_j66657892433950_1_alg».proof.Proof.Gen.Kernel.Frame
import proofs.«427339_j66657892433950_1_alg».proof.Proof.Gen.KernelIdeal
import proofs.«427339_j66657892433950_1_alg».proof.Proof.Gen.KernelIdeal.Skeleton
import proofs.«427339_j66657892433950_1_alg».proof.Proof.Gen.KernelIdeal.Launch
import proofs.«427339_j66657892433950_1_alg».proof.Proof.Gen.KernelIdeal.Points
import proofs.«427339_j66657892433950_1_alg».proof.Proof.Gen.KernelIdeal.Frame
import proofs.«427339_j66657892433950_1_alg».proof.Proof.Gen.ReferenceIdeal
import proofs.«427339_j66657892433950_1_alg».proof.Proof.RefRun
import proofs.«427339_j66657892433950_1_alg».proof.Proof.RefRead
import proofs.«427339_j66657892433950_1_alg».proof.Proof.Gen.Pre_finite_inputs
import proofs.«427339_j66657892433950_1_alg».proof.Proof.KValue
import proofs.«427339_j66657892433950_1_alg».proof.Proof.RefValue
import proofs.«427339_j66657892433950_1_alg».proof.Proof.PreRanges
import Idealize.ShloMosaic.Adequacy
import Idealize.ShloMosaic.Init

noncomputable section

namespace Cert.Proof

open Idealize.ShloMosaic Idealize.SL.Sem

/-- The kernel as printed runs and keeps its arguments: the generated frame, the tables' side condition being `True`. -/
theorem frame_k : Cert.frame_Kernel := fun m ρ _ => Cert.Kernel.Gen.frame m ρ True.intro

/-- The same for the idealized kernel. -/
theorem frame_ki : Cert.frame_KernelIdeal := fun m ρ _ => Cert.KernelIdeal.Gen.frame m ρ True.intro

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end at the specification of the arguments: the kernel's by `KValue.run`, the reference's by its run read as
    its last stage and `RefValue.ref_eq_G`; the domain both need is read off the precondition. -/
theorem algebraic : Cert.algebraic_KernelIdeal_ReferenceIdeal := by
  intro m ρ m' ρ' hpre hagree
  have hR : ∀ c : Dev Cert.KernelIdeal.nD, Cert.KernelIdeal.KValue.RangesAt m c := fun c =>
    Cert.PreRanges.ranges_of_pre _ _ _ _ _ _ _ _ (hpre c)
  refine ⟨fun c => Cert.KernelIdeal.KValue.Gm m c, Cert.KernelIdeal.KValue.run m ρ True.intro hR, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v39_eq]
  obtain ⟨e0, e1, e2, e3, e4, e5, e6, e7⟩ := hagree c
  rw [e0, e1, e2, e3, e4, e5, e6, e7]
  exact Cert.ReferenceIdeal.RefValue.ref_eq_G _ _ _ _ _ _ _ _ (hR c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
